-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel

variable [Facts]

def fn {F : FTy → Type} [FloatOps F] (main_arg0 : FVec F S65536x1000 .f32) (main_arg1 : FVec F S65536x1000 .f32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_v4 : FVec F S65536x1000 .f32 := Host.absf main_arg1
  let main_cst_0 : FVec F S_ .f32 := constant S_ .f32 0x7F800000#32
  let main_v5 : FVec F S65536x1000 .f32 := broadcastInDim S65536x1000 ![] bcast_S_S65536x1000 main_cst_0
  let main_v6 : IVec S65536x1000 1 := cmpf .olt main_v4 main_v5
  let main_c_1 : IVec S_ 1 := constantI S_ 1 1#1
  let main_v7 : IVec S_ 1 := (fun x v => Host.reduce IntOp.andi x v reducesTo_S65536x1000_S_d0_1 h_S_) main_v6 main_c_1
  let main_v8 : IVec S_ 1 := andi main_v3 main_v7
  main_v8
-- ==== Kernel.lean ====
abbrev S65536x1000 : Shape := ⟨2, ![65536, 1000]⟩
abbrev S16x128 : Shape := ⟨2, ![16, 128]⟩
abbrev S1024x1000 : Shape := ⟨2, ![1024, 1000]⟩
abbrev S8x128 : Shape := ⟨2, ![8, 128]⟩
abbrev S1x1 : Shape := ⟨2, ![1, 1]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S65536x1000, .f32⟩
  | .hbm, ⟨1, _⟩ => ⟨S65536x1000, .f32⟩
  | .hbm, ⟨2, _⟩ => ⟨S16x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1000, .f32⟩
  | .local _ .vmem, ⟨3, _⟩ => ⟨S1024x1000, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c31_i32 : BitVec 32 := 31#32
  let v30 : BitVec 1 := Scalar.cmpi .eq arg1 c31_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x128_S8x128_0_0 : ∀ a, (![0, 0] : Fin 2 → Nat) a + S8x128.size a ≤ S8x128.size a
  h_S8x128 : 0 < S8x128.numel
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  broadcasts_S1024x1_S1024x1000 : S1024x1.Broadcasts S1024x1000
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  inb_S8x128_S1x1_0_0 : ∀ a, (![0, 0] : Fin 2 → Nat) a + S1x1.size a ≤ S8x128.size a
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S65536x1000.size a
  hwx0_0 : ∀ i : grid0.Coords, EltTy.bits .f32 = 32 ∨ (Rect.block (s := S65536x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S65536x1000.size a
  hwx0_1 : ∀ i : grid0.Coords, EltTy.bits .f32 = 32 ∨ (Rect.block (s := S65536x1000) S1024x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S65536x1000 : Shape := ⟨2, ![65536, 1000]⟩
abbrev S_ : Shape := ⟨0, ![]⟩
abbrev S65536 : Shape := ⟨1, ![65536]⟩
abbrev S65536x1 : Shape := ⟨2, ![65536, 1]⟩

abbrev nBuf : Space → Nat
  | .hbm => 23
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536x1000, .f32⟩
  | .hbm, ⟨2, _⟩ => ⟨S_, .f32⟩
  | .hbm, ⟨3, _⟩ => ⟨S65536, .f32⟩
  | .hbm, ⟨4, _⟩ => ⟨S_, .f32⟩
  | .hbm, ⟨5, _⟩ => ⟨S65536, .f32⟩
  | .hbm, ⟨6, _⟩ => ⟨S65536, .f32⟩
  | .hbm, ⟨7, _⟩ => ⟨S65536x1, .f32⟩
  | .hbm, ⟨8, _⟩ => ⟨S65536x1000, .f32⟩
  | .hbm, ⟨9, _⟩ => ⟨S65536x1000, .f32⟩
  | .hbm, ⟨10, _⟩ => ⟨S65536x1000, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S65536x1, .f32⟩
  | .hbm, ⟨15, _⟩ => ⟨S65536x1000, .f32⟩
  | .hbm, ⟨16, _⟩ => ⟨S65536x1000, .f32⟩
  | .hbm, ⟨17, _⟩ => ⟨S65536x1000, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩

abbrev nD : Nat := 1
abbrev τ : Topo := Topo.v7x

variable {F : FTy → Type} [FloatOps F]

class Facts₀ : Prop where
  reducesTo_S65536x1000_S65536_d1 : S65536x1000.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x1000_0_1 : S65536x1.BroadcastsInDim S65536x1000 (![0, 1] : Fin 2 → Fin S65536x1000.rank)
  reducesTo_S65536x1000_S_d0_1 : S65536x1000.ReducesTo [0, 1] S_

variable [Facts₀]

class Facts : Prop extends Facts₀ where

variable [Facts]
-- ==== Proof.KernelDefs.lean ====
/- What the kernel keeps between grid points, named.
   The grid's 64 points run in order, in two halves of 32. The 1×1 scratch accumulator is set to zero plus the point's
   term at the first point of a half and to its previous contents plus the point's term at every other point. The
   output's staging block is zero from the first point of a half on, and at the half's last point its corner element
   is replaced by the accumulator. -/
import proofs.«413168_j5677946765570_3_alg».proof.Proof.Gen.Kernel.Frame
import proofs.«413168_j5677946765570_3_alg».proof.Proof.Gen.Kernel.Skeleton
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ)

/-- The point is the first of its half of the grid. -/
abbrev condFirst (i : grid0.Coords) : Prop := k0_cond1 i = 1#1
/-- The point is the last of its half of the grid. -/
abbrev condLast (i : grid0.Coords) : Prop := k0_cond2 i = 1#1

/-- A block with its corner element replaced by the one element of `a`. -/
def setCorner (Z : Vec F S8x128 .f32) (a : Vec F S1x1 .f32) : Vec F S8x128 .f32 :=
  fun y => if (y 0).val = 0 ∧ (y 1).val = 0 then a (ValueIdx.ix2 0 0) else Z y

/-- The two input blocks of point `t`, at their literal type. -/
abbrev xblk (c : Dev nD) (t : Fin cfg0.N) : Vec F S1024x1000 .f32 := iblk m c 0 t
abbrev pblk (c : Dev nD) (t : Fin cfg0.N) : Vec F S1024x1000 .f32 := iblk m c 1 t

/-- The accumulator after the body at position `n`: restarted from the zero splat at every multiple of 32. -/
def accAt (c : Dev nD) : (n : ℕ) → n < cfg0.N → Vec F S1x1 .f32
  | 0, hn => k0_pay3 (xblk m c ⟨0, hn⟩) (pblk m c ⟨0, hn⟩) (k0_pay1 (F := F))
  | n + 1, hn =>
    if (n + 1) % 32 = 0 then k0_pay3 (xblk m c ⟨n + 1, hn⟩) (pblk m c ⟨n + 1, hn⟩) (k0_pay1 (F := F))
    else k0_pay3 (xblk m c ⟨n + 1, hn⟩) (pblk m c ⟨n + 1, hn⟩) (accAt c n (Nat.lt_of_succ_lt hn))

theorem accAt_first (c : Dev nD) (t : Fin cfg0.N) (h : t.val % 32 = 0) :
    accAt m c t.val t.isLt = k0_pay3 (xblk m c t) (pblk m c t) (k0_pay1 (F := F)) := by
  obtain ⟨n, hn⟩ := t
  cases n with
  | zero => rfl
  | succ n => exact if_pos h

theorem accAt_next (c : Dev nD) (t : Fin cfg0.N) (h : ¬t.val % 32 = 0) :
    accAt m c t.val t.isLt = k0_pay3 (xblk m c t) (pblk m c t) (accAt m c (t.val - 1) (Nat.lt_of_le_of_lt (Nat.sub_le _ _) t.isLt)) := by
  obtain ⟨n, hn⟩ := t
  cases n with
  | zero => exact absurd (Nat.zero_mod _) h
  | succ n => exact if_neg h

/-- The output's staging block after the body at point `t` (at a point of the middle of a half the body leaves the
    block as it found it, which is this too). -/
def outAt (c : Dev nD) (t : Fin cfg0.N) : Vec F S8x128 .f32 :=
  if t.val % 32 = 31 then setCorner (k0_pay2 (F := F)) (accAt m c t.val t.isLt) else k0_pay2 (F := F)

theorem outAt_last (c : Dev nD) (t : Fin cfg0.N) (h : t.val % 32 = 31) :
    outAt m c t = setCorner (k0_pay2 (F := F)) (accAt m c t.val t.isLt) := if_pos h
theorem outAt_other (c : Dev nD) (t : Fin cfg0.N) (h : ¬t.val % 32 = 31) : outAt m c t = k0_pay2 (F := F) := if_neg h

end Cert.Kernel.Body
end
-- ==== Proof.KernelRuns.lean ====
/- The kernel body run once per control case.
   A grid point is the first of its half (the scratch accumulator and the output block are zeroed first), the last of its
   half (the accumulator, after this point's term is added, is copied into the corner of the output block, the rest of
   which still holds what it held), or neither (only the accumulator changes and the output block is not touched). In
   each case the body ends with every buffer at contents named here as functions of what it found: the accumulator at
   the stored sum; the output block zero, untouched, or with its corner replaced. -/
import proofs.«413168_j5677946765570_3_alg».proof.Proof.KernelDefs
import Idealize.ShloMosaic.Lib.WritesUnit
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

theorem zero_off2 : (![0, 0] : Fin 2 → ℕ) = fun _ => 0 := by funext a; fin_cases a <;> rfl

/-- The whole-buffer rectangle at zero offsets holds every index. -/
theorem cover_whole {S : Shape} {e : EltTy} {off : Fin S.rank → ℕ} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

/-- One element stored at the corner of a block whose contents are known: the block with its corner replaced. -/
theorem read_corner (v : View sig .tc .vmem S8x128 .f32) (f : v.ty.Contents (Elt F)) (Z : Vec F S8x128 .f32) (hZ : v.read (Elt F) f = Z)
    (inb : ∀ a, (![0, 0] : Fin 2 → ℕ) a + S1x1.size a ≤ S8x128.size a) (a : Vec F S1x1 .f32) :
    v.read (Elt F) (v.writes (Elt F) f [(⟨Rect.unit ![0, 0] S1x1.size inb, a⟩ : View.Piece (Elt F) S8x128 .f32)]) = setCorner Z a := by
  funext y
  unfold setCorner
  by_cases hy : (y 0).val = 0 ∧ (y 1).val = 0
  · rw [if_pos hy]
    exact View.read_writes_cons_unit_of_mem v f inb a [] y (ValueIdx.ix2 0 0) rfl (fun b => by
      match b with
      | ⟨0, _⟩ => exact hy.1
      | ⟨1, _⟩ => exact hy.2)
  · rw [if_neg hy]
    rcases not_and_or.mp hy with h0 | h1
    · rw [View.read_writes_cons_unit_of_not_mem v f inb a [] y rfl (0 : Fin 2) (.inr (by
        show 0 + 1 ≤ (y 0).val; omega)), View.writes_nil, hZ]
    · rw [View.read_writes_cons_unit_of_not_mem v f inb a [] y rfl (1 : Fin 2) (.inr (by
        show 0 + 1 ≤ (y 1).val; omega)), View.writes_nil, hZ]

set_option maxHeartbeats 1000000 in
/-- First point of a half: the accumulator ends at the zero splat plus this point's term, the output block at the zero splat. -/
theorem run_first (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S8x128 .f32) (harg4 : arg4.IsWhole) (arg5 : Memref sig .tc .vmem S1x1 .f32) (harg5 : arg5.IsWhole) (hc0 : condFirst i) (hc1 : ¬condLast i)
    (x0 : Vec F S1024x1000 .f32) (x1 : Vec F S1024x1000 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (k0_pay2 (F := F)) ∗ owns (c : Thread nD τ) arg5 fullShare (k0_pay3 x0 x1 (k0_pay1 (F := F)))) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_run_names
    rw [View.read_writes_eq_canon _ _ _ (cover_whole zero_off2 _ _ _), View.canon_unit_zero zero_off2]
  iexists _; isplitr; swap; · iexact HS0
  ipureintro
  sl_unfold_run_names
  rw [View.read_writes_eq_canon _ _ _ (cover_whole zero_off2 _ _ _), View.canon_cons_unit_zero zero_off2]
  simp only [View.readAt_eq_ld, harg2.read_unread, harg3.read_unread, View.ld_unit_zero (S := S1024x1000) zero_off2,
    View.readCov_unit_zero (S := S1x1) _ zero_off2]

set_option maxHeartbeats 1000000 in
/-- A point of the middle of a half: the accumulator gains this point's term, the output block is handed back as found. -/
theorem run_mid (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S8x128 .f32) (harg4 : arg4.IsWhole) (arg5 : Memref sig .tc .vmem S1x1 .f32) (harg5 : arg5.IsWhole) (hc0 : ¬condFirst i) (hc1 : ¬condLast i)
    (x0 : Vec F S1024x1000 .f32) (x1 : Vec F S1024x1000 .f32) (x2 : Vec F S8x128 .f32) (xs0 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs0
        ∗ (iprop(owns (c : Thread nD τ) arg2 fullShare x0 ∗ owns (c : Thread nD τ) arg3 fullShare x1 ∗ owns (c : Thread nD τ) arg4 fullShare x2 ∗ owns (c : Thread nD τ) arg5 fullShare (k0_pay3 x0 x1 xs0)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro; exact hf2
  iexists _; isplitr; swap; · iexact HS0
  ipureintro
  sl_unfold_run_names
  rw [View.read_writes_eq_canon _ _ _ (cover_whole zero_off2 _ _ _), View.canon_unit_zero zero_off2]
  simp only [View.readAt_eq_ld, harg2.read_unread, harg3.read_unread, harg5.read_unread, View.ld_unit_zero (S := S1024x1000) zero_off2,
    View.ld_unit_zero (S := S1x1) zero_off2]

set_option maxHeartbeats 1000000 in
/-- Last point of a half: the accumulator gains this point's term and is copied into the corner of the output block. -/
theorem run_last (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S8x128 .f32) (harg4 : arg4.IsWhole) (arg5 : Memref sig .tc .vmem S1x1 .f32) (harg5 : arg5.IsWhole) (hc0 : ¬condFirst i) (hc1 : condLast i)
    (x0 : Vec F S1024x1000 .f32) (x1 : Vec F S1024x1000 .f32) (x2 : Vec F S8x128 .f32) (xs0 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs0
        ∗ (iprop(owns (c : Thread nD τ) arg2 fullShare x0 ∗ owns (c : Thread nD τ) arg3 fullShare x1 ∗ owns (c : Thread nD τ) arg4 fullShare (setCorner x2 (k0_pay3 x0 x1 xs0)) ∗ owns (c : Thread nD τ) arg5 fullShare (k0_pay3 x0 x1 xs0)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_run_names
    rw [read_corner _ _ x2 hf2]
    simp only [View.readAt_eq_ld, harg2.read_unread, harg3.read_unread, harg5.read_unread, View.ld_unit_zero (S := S1024x1000) zero_off2,
      View.ld_unit_zero (S := S1x1) zero_off2, View.readCov_unit_zero (S := S1x1) _ zero_off2]
  iexists _; isplitr; swap; · iexact HS0
  ipureintro
  sl_unfold_run_names
  rw [View.read_writes_eq_canon _ _ _ (cover_whole zero_off2 _ _ _), View.canon_unit_zero zero_off2]
  simp only [View.readAt_eq_ld, harg2.read_unread, harg3.read_unread, harg5.read_unread, View.ld_unit_zero (S := S1024x1000) zero_off2,
    View.ld_unit_zero (S := S1x1) zero_off2]

end Cert.Kernel.Body
end
-- ==== Proof.KernelFrame.lean ====
/- The pipelined region's proof data and frame run.
   Between points the invariant holds the scratch accumulator at the running sum of its half so far. The output's
   staging block is live at the first point of a half (zeroed whole) and at the last (corner replaced, then written
   back), and idle in between; looking back through the idle points from any later point of the half, the block still
   holds the zeros of the half's first point. With the body's three runs this gives the body obligation at every point,
   hence the run of @main with every array named and the frame. -/
import proofs.«413168_j5677946765570_3_alg».proof.Proof.KernelRuns

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! ## The conditions, the idle points and the write-backs, decided over the grid -/

theorem condFirst_iff : ∀ t : Fin cfg0.N, condFirst (grid0.coords t) ↔ t.val % 32 = 0 :=
  (by decide +kernel : ∀ t : Fin grid0.N, condFirst (grid0.coords t) ↔ t.val % 32 = 0)
theorem condLast_iff : ∀ t : Fin cfg0.N, condLast (grid0.coords t) ↔ t.val % 32 = 31 :=
  (by decide +kernel : ∀ t : Fin grid0.N, condLast (grid0.coords t) ↔ t.val % 32 = 31)

theorem live_0 : ∀ t : Fin cfg0.N, cfg0.idle 0 (grid0.coords t) = false := by decide +kernel
theorem live_1 : ∀ t : Fin cfg0.N, cfg0.idle 1 (grid0.coords t) = false := by decide +kernel
/-- The output's block is idle exactly at the points that are neither first nor last of their half. -/
theorem idle_2_mid : ∀ t : Fin cfg0.N, ¬t.val % 32 = 0 → ¬t.val % 32 = 31 → cfg0.idle 2 (grid0.coords t) = true := by decide +kernel
theorem live_2_first : ∀ t : Fin cfg0.N, t.val % 32 = 0 → cfg0.idle 2 (grid0.coords t) = false := by decide +kernel
theorem live_2_last : ∀ t : Fin cfg0.N, t.val % 32 = 31 → cfg0.idle 2 (grid0.coords t) = false := by decide +kernel
/-- It is written back exactly at the last point of a half. -/
theorem noFlush_2 (t : Fin cfg0.N) (h : ¬t.val % 32 = 31) : (cfg0.win 2).flush t = false := by
  cases hf : (cfg0.win 2).flush t with
  | false => rfl
  | true => exact absurd ((flush0_2 t).mp hf) h

/-! ## The memrefs the body is called with -/

abbrev ms0 (t : Fin cfg0.N) : Memref sig .tc .vmem S1024x1000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128 .f32 := win0_2.stage (cfg0.slots t 2)
abbrev hs2 (t : Fin cfg0.N) : (ms2 t).IsWhole := hstage0_2 ((cfg0.slots t 2).cast nbuf0_2)
abbrev scM : Memref sig .tc .vmem S1x1 .f32 := Memref.whole cc0_scratch0

/-- What the launch hands the region: the scratch accumulator at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The invariant and the proof data -/

/-- Before position `n`: at the start what the launch hands over; afterwards the accumulator at the running sum. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The proof data: the arrays as the region finds them; after the body each input's buffer at its block, the output's
    at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The output's window is not cut: what the body leaves in its buffer is all the next point finds. -/
theorem kept_2 (c : Dev nD) (t : Fin cfg0.N) (d) : (dats m 0 c).kept 2 t d = outAt m c t := by
  unfold Dat.kept
  rw [Pipeline.fill_of_clip_none (cfg := cfg0) 2 _ (fun _ => rfl) d ((dats m 0 c).after 2 t), Window.fill_cut, after_2]

/-- LOOKING BACK. At every point but the first of a half the output's buffer holds the zero block: what the half's first
    point stored, seen through the idle points since. -/
theorem before_2 (c : Dev nD) : ∀ (n : ℕ) (hn : n < cfg0.N), ¬n % 32 = 0 → ∀ d, (dats m 0 c).before 2 ⟨n, hn⟩ d = k0_pay2 (F := F) := by
  intro n
  induction n with
  | zero => intro hn h; exact absurd (Nat.zero_mod _) h
  | succ n ih =>
    intro hn h d
    have hN : n + 1 < 64 := lt_of_lt_of_eq hn (show cfg0.N = 64 from N_0)
    rw [(dats m 0 c).before_of_pos 2 ⟨n + 1, hn⟩ (Nat.succ_ne_zero n) ((cfg0.win 2).fetch_out rfl _) d]
    have hfl : (cfg0.win 2).flush ⟨n + 1 - 1, Nat.lt_of_le_of_lt (Nat.sub_le _ _) hn⟩ = false :=
      noFlush_2 _ (by show ¬(n + 1 - 1) % 32 = 31; omega)
    rw [hfl, if_neg Bool.false_ne_true]
    unfold Dat.left
    by_cases h0 : n % 32 = 0
    · rw [live_2_first ⟨n + 1 - 1, _⟩ (by show (n + 1 - 1) % 32 = 0; omega)]
      dsimp only
      rw [kept_2, outAt_other m c _ (by show ¬(n + 1 - 1) % 32 = 31; omega)]
    · rw [idle_2_mid ⟨n + 1 - 1, _⟩ (by show ¬(n + 1 - 1) % 32 = 0; omega) (by show ¬(n + 1 - 1) % 32 = 31; omega)]
      dsimp only
      exact ih (Nat.lt_of_succ_lt hn) h0 d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  by_cases h0 : t.val % 32 = 0
  · have h1 : ¬t.val % 32 = 31 := by omega
    rw [show (dats m 0 c).leavesExact 2 t = owns (c : Thread nD τ) (ms2 t) fullShare ((dats m 0 c).after 2 t) from by
      unfold Dat.leavesExact; rw [live_2_first t h0], after_2, outAt_other m c t h1, accAt_first m c t h0]
    by_cases hz : t.val = 0
    · rw [PhiS_castSucc m c t, PhiS_zero m c _ _ hz, PhiA_eq]
      iintro ⟨⟨HS0, Hg⟩, Ho, ⟨%d0, H0⟩, ⟨%d1, H1⟩, ⟨%d2, H2⟩⟩
      iapply (run_first c (grid0.coords t) (ms0 t) (hs0 t) (ms1 t) (hs1 t) (ms2 t) (hs2 t) scM (Memref.isWhole_whole _) ((condFirst_iff t).mpr h0) (fun h => h1 ((condLast_iff t).mp h)) (iblk m c 0 t) (iblk m c 1 t) Set.univ _)
      isplitl [H0]; · iexact H0
      isplitl [H1]; · iexact H1
      isplitl [H2]; · iexists _; iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
    · rw [PhiS_castSucc m c t, PhiS_pos m c _ _ hz]
      iintro ⟨⟨HS0, Hg⟩, Ho, ⟨%d0, H0⟩, ⟨%d1, H1⟩, ⟨%d2, H2⟩⟩
      iapply (run_first c (grid0.coords t) (ms0 t) (hs0 t) (ms1 t) (hs1 t) (ms2 t) (hs2 t) scM (Memref.isWhole_whole _) ((condFirst_iff t).mpr h0) (fun h => h1 ((condLast_iff t).mp h)) (iblk m c 0 t) (iblk m c 1 t) Set.univ _)
      isplitl [H0]; · iexact H0
      isplitl [H1]; · iexact H1
      isplitl [H2]; · iexists _; iexact H2
      isplitl [HS0]; · iexists _; iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
  · have hz : t.val ≠ 0 := fun hz => h0 (by rw [hz])
    rw [PhiS_castSucc m c t, PhiS_pos m c _ _ hz, accAt_next m c t h0]
    simp only [before_2 m c t.val t.isLt h0]
    by_cases h1 : t.val % 32 = 31
    · rw [show (dats m 0 c).leavesExact 2 t = owns (c : Thread nD τ) (ms2 t) fullShare ((dats m 0 c).after 2 t) from by
        unfold Dat.leavesExact; rw [live_2_last t h1], after_2, outAt_last m c t h1, accAt_next m c t h0]
      iintro ⟨⟨HS0, Hg⟩, Ho, ⟨%d0, H0⟩, ⟨%d1, H1⟩, ⟨%d2, H2⟩⟩
      iapply (run_last c (grid0.coords t) (ms0 t) (hs0 t) (ms1 t) (hs1 t) (ms2 t) (hs2 t) scM (Memref.isWhole_whole _) (fun h => h0 ((condFirst_iff t).mp h)) ((condLast_iff t).mpr h1) (iblk m c 0 t) (iblk m c 1 t) (k0_pay2 (F := F)) _ Set.univ _)
      isplitl [H0]; · iexact H0
      isplitl [H1]; · iexact H1
      isplitl [H2]; · iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
    · rw [Dat.leavesExact_idle (dats m 0 c) 2 t (idle_2_mid t h0 h1) (noFlush_2 t h1)]
      simp only [before_2 m c t.val t.isLt h0]
      iintro ⟨⟨HS0, Hg⟩, Ho, ⟨%d0, H0⟩, ⟨%d1, H1⟩, ⟨%d2, H2⟩⟩
      iapply (run_mid c (grid0.coords t) (ms0 t) (hs0 t) (ms1 t) (hs1 t) (ms2 t) (hs2 t) scM (Memref.isWhole_whole _) (fun h => h0 ((condFirst_iff t).mp h)) (fun h => h1 ((condLast_iff t).mp h)) (iblk m c 0 t) (iblk m c 1 t) (k0_pay2 (F := F)) _ Set.univ _)
      isplitl [H0]; · iexact H0
      isplitl [H1]; · iexact H1
      isplitl [H2]; · iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexists d2; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates; every array of the pipeline ends at what the write-backs make of the
    proof data, every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body
end
-- ==== Proof.IdealDefs.lean ====
/- What the kernel keeps between grid points, named.
   The grid's 64 points run in order, in two halves of 32. The 1×1 scratch accumulator is set to zero plus the point's
   term at the first point of a half and to its previous contents plus the point's term at every other point. The
   output's staging block is zero from the first point of a half on, and at the half's last point its corner element
   is replaced by the accumulator. -/
import proofs.«413168_j5677946765570_3_alg».proof.Proof.Gen.KernelIdeal.Frame
import proofs.«413168_j5677946765570_3_alg».proof.Proof.Gen.KernelIdeal.Skeleton
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ)

/-- The point is the first of its half of the grid. -/
abbrev condFirst (i : grid0.Coords) : Prop := k0_cond1 i = 1#1
/-- The point is the last of its half of the grid. -/
abbrev condLast (i : grid0.Coords) : Prop := k0_cond2 i = 1#1

/-- A block with its corner element replaced by the one element of `a`. -/
def setCorner (Z : Vec F S8x128 .f32) (a : Vec F S1x1 .f32) : Vec F S8x128 .f32 :=
  fun y => if (y 0).val = 0 ∧ (y 1).val = 0 then a (ValueIdx.ix2 0 0) else Z y

/-- The two input blocks of point `t`, at their literal type. -/
abbrev xblk (c : Dev nD) (t : Fin cfg0.N) : Vec F S1024x1000 .f32 := iblk m c 0 t
abbrev pblk (c : Dev nD) (t : Fin cfg0.N) : Vec F S1024x1000 .f32 := iblk m c 1 t

/-- The accumulator after the body at position `n`: restarted from the zero splat at every multiple of 32. -/
def accAt (c : Dev nD) : (n : ℕ) → n < cfg0.N → Vec F S1x1 .f32
  | 0, hn => k0_pay3 (xblk m c ⟨0, hn⟩) (pblk m c ⟨0, hn⟩) (k0_pay1 (F := F))
  | n + 1, hn =>
    if (n + 1) % 32 = 0 then k0_pay3 (xblk m c ⟨n + 1, hn⟩) (pblk m c ⟨n + 1, hn⟩) (k0_pay1 (F := F))
    else k0_pay3 (xblk m c ⟨n + 1, hn⟩) (pblk m c ⟨n + 1, hn⟩) (accAt c n (Nat.lt_of_succ_lt hn))

theorem accAt_first (c : Dev nD) (t : Fin cfg0.N) (h : t.val % 32 = 0) :
    accAt m c t.val t.isLt = k0_pay3 (xblk m c t) (pblk m c t) (k0_pay1 (F := F)) := by
  obtain ⟨n, hn⟩ := t
  cases n with
  | zero => rfl
  | succ n => exact if_pos h

theorem accAt_next (c : Dev nD) (t : Fin cfg0.N) (h : ¬t.val % 32 = 0) :
    accAt m c t.val t.isLt = k0_pay3 (xblk m c t) (pblk m c t) (accAt m c (t.val - 1) (Nat.lt_of_le_of_lt (Nat.sub_le _ _) t.isLt)) := by
  obtain ⟨n, hn⟩ := t
  cases n with
  | zero => exact absurd (Nat.zero_mod _) h
  | succ n => exact if_neg h

/-- The output's staging block after the body at point `t` (at a point of the middle of a half the body leaves the
    block as it found it, which is this too). -/
def outAt (c : Dev nD) (t : Fin cfg0.N) : Vec F S8x128 .f32 :=
  if t.val % 32 = 31 then setCorner (k0_pay2 (F := F)) (accAt m c t.val t.isLt) else k0_pay2 (F := F)

theorem outAt_last (c : Dev nD) (t : Fin cfg0.N) (h : t.val % 32 = 31) :
    outAt m c t = setCorner (k0_pay2 (F := F)) (accAt m c t.val t.isLt) := if_pos h
theorem outAt_other (c : Dev nD) (t : Fin cfg0.N) (h : ¬t.val % 32 = 31) : outAt m c t = k0_pay2 (F := F) := if_neg h

end Cert.KernelIdeal.Body
end
-- ==== Proof.IdealRuns.lean ====
/- The kernel body run once per control case.
   A grid point is the first of its half (the scratch accumulator and the output block are zeroed first), the last of its
   half (the accumulator, after this point's term is added, is copied into the corner of the output block, the rest of
   which still holds what it held), or neither (only the accumulator changes and the output block is not touched). In
   each case the body ends with every buffer at contents named here as functions of what it found: the accumulator at
   the stored sum; the output block zero, untouched, or with its corner replaced. -/
import proofs.«413168_j5677946765570_3_alg».proof.Proof.IdealDefs
import Idealize.ShloMosaic.Lib.WritesUnit
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

theorem zero_off2 : (![0, 0] : Fin 2 → ℕ) = fun _ => 0 := by funext a; fin_cases a <;> rfl

/-- The whole-buffer rectangle at zero offsets holds every index. -/
theorem cover_whole {S : Shape} {e : EltTy} {off : Fin S.rank → ℕ} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

/-- One element stored at the corner of a block whose contents are known: the block with its corner replaced. -/
theorem read_corner (v : View sig .tc .vmem S8x128 .f32) (f : v.ty.Contents (Elt F)) (Z : Vec F S8x128 .f32) (hZ : v.read (Elt F) f = Z)
    (inb : ∀ a, (![0, 0] : Fin 2 → ℕ) a + S1x1.size a ≤ S8x128.size a) (a : Vec F S1x1 .f32) :
    v.read (Elt F) (v.writes (Elt F) f [(⟨Rect.unit ![0, 0] S1x1.size inb, a⟩ : View.Piece (Elt F) S8x128 .f32)]) = setCorner Z a := by
  funext y
  unfold setCorner
  by_cases hy : (y 0).val = 0 ∧ (y 1).val = 0
  · rw [if_pos hy]
    exact View.read_writes_cons_unit_of_mem v f inb a [] y (ValueIdx.ix2 0 0) rfl (fun b => by
      match b with
      | ⟨0, _⟩ => exact hy.1
      | ⟨1, _⟩ => exact hy.2)
  · rw [if_neg hy]
    rcases not_and_or.mp hy with h0 | h1
    · rw [View.read_writes_cons_unit_of_not_mem v f inb a [] y rfl (0 : Fin 2) (.inr (by
        show 0 + 1 ≤ (y 0).val; omega)), View.writes_nil, hZ]
    · rw [View.read_writes_cons_unit_of_not_mem v f inb a [] y rfl (1 : Fin 2) (.inr (by
        show 0 + 1 ≤ (y 1).val; omega)), View.writes_nil, hZ]

set_option maxHeartbeats 1000000 in
/-- First point of a half: the accumulator ends at the zero splat plus this point's term, the output block at the zero splat. -/
theorem run_first (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S8x128 .f32) (harg4 : arg4.IsWhole) (arg5 : Memref sig .tc .vmem S1x1 .f32) (harg5 : arg5.IsWhole) (hc0 : condFirst i) (hc1 : ¬condLast i)
    (x0 : Vec F S1024x1000 .f32) (x1 : Vec F S1024x1000 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (k0_pay2 (F := F)) ∗ owns (c : Thread nD τ) arg5 fullShare (k0_pay3 x0 x1 (k0_pay1 (F := F)))) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_run_names
    rw [View.read_writes_eq_canon _ _ _ (cover_whole zero_off2 _ _ _), View.canon_unit_zero zero_off2]
  iexists _; isplitr; swap; · iexact HS0
  ipureintro
  sl_unfold_run_names
  rw [View.read_writes_eq_canon _ _ _ (cover_whole zero_off2 _ _ _), View.canon_cons_unit_zero zero_off2]
  simp only [View.readAt_eq_ld, harg2.read_unread, harg3.read_unread, View.ld_unit_zero (S := S1024x1000) zero_off2,
    View.readCov_unit_zero (S := S1x1) _ zero_off2]

set_option maxHeartbeats 1000000 in
/-- A point of the middle of a half: the accumulator gains this point's term, the output block is handed back as found. -/
theorem run_mid (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S8x128 .f32) (harg4 : arg4.IsWhole) (arg5 : Memref sig .tc .vmem S1x1 .f32) (harg5 : arg5.IsWhole) (hc0 : ¬condFirst i) (hc1 : ¬condLast i)
    (x0 : Vec F S1024x1000 .f32) (x1 : Vec F S1024x1000 .f32) (x2 : Vec F S8x128 .f32) (xs0 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs0
        ∗ (iprop(owns (c : Thread nD τ) arg2 fullShare x0 ∗ owns (c : Thread nD τ) arg3 fullShare x1 ∗ owns (c : Thread nD τ) arg4 fullShare x2 ∗ owns (c : Thread nD τ) arg5 fullShare (k0_pay3 x0 x1 xs0)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro; exact hf2
  iexists _; isplitr; swap; · iexact HS0
  ipureintro
  sl_unfold_run_names
  rw [View.read_writes_eq_canon _ _ _ (cover_whole zero_off2 _ _ _), View.canon_unit_zero zero_off2]
  simp only [View.readAt_eq_ld, harg2.read_unread, harg3.read_unread, harg5.read_unread, View.ld_unit_zero (S := S1024x1000) zero_off2,
    View.ld_unit_zero (S := S1x1) zero_off2]

set_option maxHeartbeats 1000000 in
/-- Last point of a half: the accumulator gains this point's term and is copied into the corner of the output block. -/
theorem run_last (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S8x128 .f32) (harg4 : arg4.IsWhole) (arg5 : Memref sig .tc .vmem S1x1 .f32) (harg5 : arg5.IsWhole) (hc0 : ¬condFirst i) (hc1 : condLast i)
    (x0 : Vec F S1024x1000 .f32) (x1 : Vec F S1024x1000 .f32) (x2 : Vec F S8x128 .f32) (xs0 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs0
        ∗ (iprop(owns (c : Thread nD τ) arg2 fullShare x0 ∗ owns (c : Thread nD τ) arg3 fullShare x1 ∗ owns (c : Thread nD τ) arg4 fullShare (setCorner x2 (k0_pay3 x0 x1 xs0)) ∗ owns (c : Thread nD τ) arg5 fullShare (k0_pay3 x0 x1 xs0)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_run_names
    rw [read_corner _ _ x2 hf2]
    simp only [View.readAt_eq_ld, harg2.read_unread, harg3.read_unread, harg5.read_unread, View.ld_unit_zero (S := S1024x1000) zero_off2,
      View.ld_unit_zero (S := S1x1) zero_off2, View.readCov_unit_zero (S := S1x1) _ zero_off2]
  iexists _; isplitr; swap; · iexact HS0
  ipureintro
  sl_unfold_run_names
  rw [View.read_writes_eq_canon _ _ _ (cover_whole zero_off2 _ _ _), View.canon_unit_zero zero_off2]
  simp only [View.readAt_eq_ld, harg2.read_unread, harg3.read_unread, harg5.read_unread, View.ld_unit_zero (S := S1024x1000) zero_off2,
    View.ld_unit_zero (S := S1x1) zero_off2]

end Cert.KernelIdeal.Body
end
-- ==== Proof.IdealFrame.lean ====
/- The pipelined region's proof data and frame run.
   Between points the invariant holds the scratch accumulator at the running sum of its half so far. The output's
   staging block is live at the first point of a half (zeroed whole) and at the last (corner replaced, then written
   back), and idle in between; looking back through the idle points from any later point of the half, the block still
   holds the zeros of the half's first point. With the body's three runs this gives the body obligation at every point,
   hence the run of @main with every array named and the frame. -/
import proofs.«413168_j5677946765570_3_alg».proof.Proof.IdealRuns

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! ## The conditions, the idle points and the write-backs, decided over the grid -/

theorem condFirst_iff : ∀ t : Fin cfg0.N, condFirst (grid0.coords t) ↔ t.val % 32 = 0 :=
  (by decide +kernel : ∀ t : Fin grid0.N, condFirst (grid0.coords t) ↔ t.val % 32 = 0)
theorem condLast_iff : ∀ t : Fin cfg0.N, condLast (grid0.coords t) ↔ t.val % 32 = 31 :=
  (by decide +kernel : ∀ t : Fin grid0.N, condLast (grid0.coords t) ↔ t.val % 32 = 31)

theorem live_0 : ∀ t : Fin cfg0.N, cfg0.idle 0 (grid0.coords t) = false := by decide +kernel
theorem live_1 : ∀ t : Fin cfg0.N, cfg0.idle 1 (grid0.coords t) = false := by decide +kernel
/-- The output's block is idle exactly at the points that are neither first nor last of their half. -/
theorem idle_2_mid : ∀ t : Fin cfg0.N, ¬t.val % 32 = 0 → ¬t.val % 32 = 31 → cfg0.idle 2 (grid0.coords t) = true := by decide +kernel
theorem live_2_first : ∀ t : Fin cfg0.N, t.val % 32 = 0 → cfg0.idle 2 (grid0.coords t) = false := by decide +kernel
theorem live_2_last : ∀ t : Fin cfg0.N, t.val % 32 = 31 → cfg0.idle 2 (grid0.coords t) = false := by decide +kernel
/-- It is written back exactly at the last point of a half. -/
theorem noFlush_2 (t : Fin cfg0.N) (h : ¬t.val % 32 = 31) : (cfg0.win 2).flush t = false := by
  cases hf : (cfg0.win 2).flush t with
  | false => rfl
  | true => exact absurd ((flush0_2 t).mp hf) h

/-! ## The memrefs the body is called with -/

abbrev ms0 (t : Fin cfg0.N) : Memref sig .tc .vmem S1024x1000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128 .f32 := win0_2.stage (cfg0.slots t 2)
abbrev hs2 (t : Fin cfg0.N) : (ms2 t).IsWhole := hstage0_2 ((cfg0.slots t 2).cast nbuf0_2)
abbrev scM : Memref sig .tc .vmem S1x1 .f32 := Memref.whole cc0_scratch0

/-- What the launch hands the region: the scratch accumulator at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The invariant and the proof data -/

/-- Before position `n`: at the start what the launch hands over; afterwards the accumulator at the running sum. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The proof data: the arrays as the region finds them; after the body each input's buffer at its block, the output's
    at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The output's window is not cut: what the body leaves in its buffer is all the next point finds. -/
theorem kept_2 (c : Dev nD) (t : Fin cfg0.N) (d) : (dats m 0 c).kept 2 t d = outAt m c t := by
  unfold Dat.kept
  rw [Pipeline.fill_of_clip_none (cfg := cfg0) 2 _ (fun _ => rfl) d ((dats m 0 c).after 2 t), Window.fill_cut, after_2]

/-- LOOKING BACK. At every point but the first of a half the output's buffer holds the zero block: what the half's first
    point stored, seen through the idle points since. -/
theorem before_2 (c : Dev nD) : ∀ (n : ℕ) (hn : n < cfg0.N), ¬n % 32 = 0 → ∀ d, (dats m 0 c).before 2 ⟨n, hn⟩ d = k0_pay2 (F := F) := by
  intro n
  induction n with
  | zero => intro hn h; exact absurd (Nat.zero_mod _) h
  | succ n ih =>
    intro hn h d
    have hN : n + 1 < 64 := lt_of_lt_of_eq hn (show cfg0.N = 64 from N_0)
    rw [(dats m 0 c).before_of_pos 2 ⟨n + 1, hn⟩ (Nat.succ_ne_zero n) ((cfg0.win 2).fetch_out rfl _) d]
    have hfl : (cfg0.win 2).flush ⟨n + 1 - 1, Nat.lt_of_le_of_lt (Nat.sub_le _ _) hn⟩ = false :=
      noFlush_2 _ (by show ¬(n + 1 - 1) % 32 = 31; omega)
    rw [hfl, if_neg Bool.false_ne_true]
    unfold Dat.left
    by_cases h0 : n % 32 = 0
    · rw [live_2_first ⟨n + 1 - 1, _⟩ (by show (n + 1 - 1) % 32 = 0; omega)]
      dsimp only
      rw [kept_2, outAt_other m c _ (by show ¬(n + 1 - 1) % 32 = 31; omega)]
    · rw [idle_2_mid ⟨n + 1 - 1, _⟩ (by show ¬(n + 1 - 1) % 32 = 0; omega) (by show ¬(n + 1 - 1) % 32 = 31; omega)]
      dsimp only
      exact ih (Nat.lt_of_succ_lt hn) h0 d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  by_cases h0 : t.val % 32 = 0
  · have h1 : ¬t.val % 32 = 31 := by omega
    rw [show (dats m 0 c).leavesExact 2 t = owns (c : Thread nD τ) (ms2 t) fullShare ((dats m 0 c).after 2 t) from by
      unfold Dat.leavesExact; rw [live_2_first t h0], after_2, outAt_other m c t h1, accAt_first m c t h0]
    by_cases hz : t.val = 0
    · rw [PhiS_castSucc m c t, PhiS_zero m c _ _ hz, PhiA_eq]
      iintro ⟨⟨HS0, Hg⟩, Ho, ⟨%d0, H0⟩, ⟨%d1, H1⟩, ⟨%d2, H2⟩⟩
      iapply (run_first c (grid0.coords t) (ms0 t) (hs0 t) (ms1 t) (hs1 t) (ms2 t) (hs2 t) scM (Memref.isWhole_whole _) ((condFirst_iff t).mpr h0) (fun h => h1 ((condLast_iff t).mp h)) (iblk m c 0 t) (iblk m c 1 t) Set.univ _)
      isplitl [H0]; · iexact H0
      isplitl [H1]; · iexact H1
      isplitl [H2]; · iexists _; iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
    · rw [PhiS_castSucc m c t, PhiS_pos m c _ _ hz]
      iintro ⟨⟨HS0, Hg⟩, Ho, ⟨%d0, H0⟩, ⟨%d1, H1⟩, ⟨%d2, H2⟩⟩
      iapply (run_first c (grid0.coords t) (ms0 t) (hs0 t) (ms1 t) (hs1 t) (ms2 t) (hs2 t) scM (Memref.isWhole_whole _) ((condFirst_iff t).mpr h0) (fun h => h1 ((condLast_iff t).mp h)) (iblk m c 0 t) (iblk m c 1 t) Set.univ _)
      isplitl [H0]; · iexact H0
      isplitl [H1]; · iexact H1
      isplitl [H2]; · iexists _; iexact H2
      isplitl [HS0]; · iexists _; iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
  · have hz : t.val ≠ 0 := fun hz => h0 (by rw [hz])
    rw [PhiS_castSucc m c t, PhiS_pos m c _ _ hz, accAt_next m c t h0]
    simp only [before_2 m c t.val t.isLt h0]
    by_cases h1 : t.val % 32 = 31
    · rw [show (dats m 0 c).leavesExact 2 t = owns (c : Thread nD τ) (ms2 t) fullShare ((dats m 0 c).after 2 t) from by
        unfold Dat.leavesExact; rw [live_2_last t h1], after_2, outAt_last m c t h1, accAt_next m c t h0]
      iintro ⟨⟨HS0, Hg⟩, Ho, ⟨%d0, H0⟩, ⟨%d1, H1⟩, ⟨%d2, H2⟩⟩
      iapply (run_last c (grid0.coords t) (ms0 t) (hs0 t) (ms1 t) (hs1 t) (ms2 t) (hs2 t) scM (Memref.isWhole_whole _) (fun h => h0 ((condFirst_iff t).mp h)) ((condLast_iff t).mpr h1) (iblk m c 0 t) (iblk m c 1 t) (k0_pay2 (F := F)) _ Set.univ _)
      isplitl [H0]; · iexact H0
      isplitl [H1]; · iexact H1
      isplitl [H2]; · iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
    · rw [Dat.leavesExact_idle (dats m 0 c) 2 t (idle_2_mid t h0 h1) (noFlush_2 t h1)]
      simp only [before_2 m c t.val t.isLt h0]
      iintro ⟨⟨HS0, Hg⟩, Ho, ⟨%d0, H0⟩, ⟨%d1, H1⟩, ⟨%d2, H2⟩⟩
      iapply (run_mid c (grid0.coords t) (ms0 t) (hs0 t) (ms1 t) (hs1 t) (ms2 t) (hs2 t) scM (Memref.isWhole_whole _) (fun h => h0 ((condFirst_iff t).mp h)) (fun h => h1 ((condLast_iff t).mp h)) (iblk m c 0 t) (iblk m c 1 t) (k0_pay2 (F := F)) _ Set.univ _)
      isplitl [H0]; · iexact H0
      isplitl [H1]; · iexact H1
      isplitl [H2]; · iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexists d2; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates; every array of the pipeline ends at what the write-backs make of the
    proof data, every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body
end
-- ==== Proof.Spec.lean ====
/- The loss as one function of the two argument arrays: a cross-entropy row term, written
   the way each of the two programs computes it, and the identity between the two. -/
import Idealize.ShloMosaic.PureOps.Ideal
import Mathlib.Data.EReal.Basic
import Mathlib.Data.EReal.Operations
import Mathlib.Data.Finset.Fold
import Mathlib.Algebra.BigOperators.Group.Finset.Basic
import Mathlib.Algebra.BigOperators.Ring.Finset
import Mathlib.Algebra.Order.BigOperators.Group.Finset
import Mathlib.Analysis.SpecialFunctions.Log.Basic

namespace Cert.Spec
open Idealize.ShloMosaic
open scoped BigOperators

variable {R K : Type} [Fintype R] [Fintype K]

/-- log of the sum of exponentials of a row shifted by M -/
noncomputable def lse (x : K → EReal) (M : EReal) : EReal := Ideal.log (∑ k, Ideal.exp (x k - M))
/-- the kernel's term of one row -/
noncomputable def rowTerm (x p : K → EReal) (M : EReal) : EReal := (∑ k, p k) * lse x M - ∑ k, p k * (x k - M)
/-- the reference's element -/
noncomputable def refElt (x p : K → EReal) (M : EReal) (k : K) : EReal := p k * ((x k - M) - lse x M)

/-- The inclusion of the reals in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonempty finite sum of exponentials is positive. -/
theorem sumExp_pos [Nonempty K] (a : K → ℝ) : 0 < ∑ k, Real.exp (a k) :=
  Finset.sum_pos (fun k _ => Real.exp_pos (a k)) Finset.univ_nonempty

/-- In the reals: shifting every score by m shifts the log of the sum of exponentials by m,
    because exp (a - m) = exp a * exp (-m) and the common factor leaves the sum. -/
theorem log_sumExp_shift [Nonempty K] (a : K → ℝ) (m : ℝ) :
    Real.log (∑ k, Real.exp (a k - m)) = Real.log (∑ k, Real.exp (a k)) - m := by
  have h : ∀ k, Real.exp (a k - m) = Real.exp (a k) * Real.exp (-m) := fun k => by
    rw [sub_eq_add_neg, Real.exp_add]
  simp_rw [h]
  rw [← Finset.sum_mul, Real.log_mul (ne_of_gt (sumExp_pos a)) (Real.exp_ne_zero _), Real.log_exp]
  ring

/-- On real scores and a real shift, lse is the real log of the real sum of exponentials. -/
theorem lse_coe [Nonempty K] (a : K → ℝ) (m : ℝ) :
    lse (fun k => (a k : EReal)) (m : EReal) = ((Real.log (∑ k, Real.exp (a k - m)) : ℝ) : EReal) := by
  unfold lse
  simp_rw [← EReal.coe_sub, Ideal.exp_coe, ← coe_sum]
  rw [Ideal.log_coe, if_neg (not_le.mpr (sumExp_pos fun k => a k - m))]

/-- one row: the kernel's term is minus the row's total of the reference's elements, whatever real shifts the two use; and it is a real number -/
theorem rowTerm_eq [Nonempty K] (x p : K → EReal) (M M' : EReal)
    (hx : ∀ k, ∃ a : ℝ, x k = a) (hp : ∀ k, ∃ a : ℝ, p k = a) (hM : ∃ a : ℝ, M = a) (hM' : ∃ a : ℝ, M' = a) :
    ∃ a : ℝ, rowTerm x p M = a ∧ (∑ k, refElt x p M' k) = ((-a : ℝ) : EReal) := by
  choose a ha using hx
  choose b hb using hp
  obtain ⟨m, rfl⟩ := hM
  obtain ⟨m', rfl⟩ := hM'
  obtain rfl : x = fun k => (a k : EReal) := funext ha
  obtain rfl : p = fun k => (b k : EReal) := funext hb
  -- with S the sum of the exponentials of the unshifted scores, both programs' log-sum-exp is log S minus the shift
  refine ⟨(∑ k, b k) * Real.log (∑ k, Real.exp (a k - m)) - ∑ k, b k * (a k - m), ?_, ?_⟩
  · unfold rowTerm
    rw [lse_coe]
    simp_rw [← EReal.coe_sub, ← EReal.coe_mul, ← coe_sum]
    rw [← EReal.coe_mul, ← EReal.coe_sub]
  · unfold refElt
    rw [lse_coe]
    simp_rw [← EReal.coe_sub, ← EReal.coe_mul, ← coe_sum]
    rw [EReal.coe_eq_coe_iff, log_sumExp_shift a m, log_sumExp_shift a m']
    -- each element is b k * (a k - log S); the total is Σ b k * a k - (Σ b k) * log S
    have e : ∀ k, b k * (a k - m' - (Real.log (∑ k, Real.exp (a k)) - m'))
        = b k * a k - b k * Real.log (∑ k, Real.exp (a k)) := fun k => by ring
    have e' : ∀ k, b k * (a k - m) = b k * a k - b k * m := fun k => by ring
    simp_rw [e, e']
    rw [Finset.sum_sub_distrib, Finset.sum_sub_distrib, ← Finset.sum_mul, ← Finset.sum_mul]
    ring

/-- all rows -/
theorem sum_rowTerm_eq [Nonempty K] (x p : R → K → EReal) (M M' : R → EReal)
    (hx : ∀ r k, ∃ a : ℝ, x r k = a) (hp : ∀ r k, ∃ a : ℝ, p r k = a) (hM : ∀ r, ∃ a : ℝ, M r = a) (hM' : ∀ r, ∃ a : ℝ, M' r = a) :
    (∑ r, rowTerm (x r) (p r) (M r)) = -(∑ r, ∑ k, refElt (x r) (p r) (M' r) k) := by
  choose c hc using fun r => rowTerm_eq (x r) (p r) (M r) (M' r) (hx r) (hp r) (hM r) (hM' r)
  -- row by row the two sides are a real and its negative; a finite sum of reals negates termwise
  simp_rw [fun r => (hc r).1, fun r => (hc r).2, ← coe_sum]
  rw [← EReal.coe_neg, EReal.coe_eq_coe_iff, Finset.sum_neg_distrib, neg_neg]

/-- the running maximum of finitely many reals, started from −∞, over a nonempty index set, is a real -/
theorem fold_max_real {n : ℕ} (hn : 0 < n) (f : Fin n → EReal) (hf : ∀ k, ∃ a : ℝ, f k = a) :
    ∃ a : ℝ, (Finset.univ : Finset (Fin n)).fold max (⊥ : EReal) f = a := by
  -- below +∞ because the start and every entry are; above −∞ because the first entry is
  have htop : (Finset.univ : Finset (Fin n)).fold max (⊥ : EReal) f < ⊤ := by
    rw [Finset.fold_max_lt]
    refine ⟨bot_lt_top, fun k _ => ?_⟩
    obtain ⟨a, ha⟩ := hf k
    rw [ha]; exact EReal.coe_lt_top a
  have hbot : (⊥ : EReal) < (Finset.univ : Finset (Fin n)).fold max (⊥ : EReal) f := by
    rw [Finset.lt_fold_max]
    refine Or.inr ⟨⟨0, hn⟩, Finset.mem_univ _, ?_⟩
    obtain ⟨a, ha⟩ := hf ⟨0, hn⟩
    rw [ha]; exact EReal.bot_lt_coe a
  exact ⟨_, (EReal.coe_toReal (ne_of_lt htop) (ne_of_gt hbot)).symm⟩

/-- −∞ is the identity of max on the left -/
theorem max_bot_left (y : EReal) : max (⊥ : EReal) y = y := bot_sup_eq y

end Cert.Spec
-- ==== Proof.PayIdeal.lean ====
import proofs.«413168_j5677946765570_3_alg».proof.Proof.Gen.KernelIdeal.Skeleton
import proofs.«413168_j5677946765570_3_alg».proof.Proof.Spec
import Idealize.ShloMosaic.Lib.ValueIdx
import Idealize.ShloMosaic.Lib.Pipeline.Value
import Idealize.ShloMosaic.Lib.ValueLayout
import Idealize.ShloMosaic.PureOps.Ideal.Laws
import Mathlib.Data.EReal.Basic
import Mathlib.Data.Finset.Fold
import Mathlib.Algebra.BigOperators.Group.Finset.Basic

/-!
# The three values the kernel body stores, at the ideal instance

At the ideal instance a float is an extended real and every operation is exact. Two of the stored
values are splats of the pattern of `+0`, hence the constant `0`. The third is the old `1 × 1`
accumulator plus one number computed from the block's two `[1024, 1000]` arrays `x` and `p`: with
`m r` the running maximum of row `r` of `x` started from `−∞`, the body forms per row

  `(Σ_k p r k) · log (Σ_k exp (x r k − m r)) − Σ_k p r k · (x r k − m r)`

and sums these `1024` row terms. The lane reductions are read as sums and folds over the lane
coordinate, the shape casts and the broadcast by coordinates, and the closing reduction over the
`[1, 1024, 1]` array as the sum over its middle coordinate.
-/

noncomputable section
namespace Cert.KernelIdeal.Pay
open Cert.KernelIdeal Cert.KernelIdeal.Gen Idealize.ShloMosaic Idealize.ShloMosaic.ValueIdx
open scoped BigOperators

/-! ## The two bit patterns -/

/-- The pattern `0xFF800000` (sign set, exponent all ones, mantissa zero) denotes `⊥`. -/
theorem negInf_eq_bot : Ideal.ofBits .f32 0xFF800000#32 = (⊥ : EReal) := by
  simp [Ideal.ofBits, Ideal.ieee]

/-! ## Layout operations with a trailing unit axis, read by coordinates -/

section Layout
variable {α : Type}

/-- An `[a]` array cast to `[a, 1]` reads, at `(i, u)`, the operand at `i`: the row-major position of `(i, u)` is
    `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, k)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (k : Fin b) :
    broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

/-- A `[1, n, 1]` index set is the range of its middle coordinate. -/
def idxEquiv1n1 {n : ℕ} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h := (i 0).isLt; change (i 0).val < 1 at h; show 0 = (i 0).val; omega)
    | ⟨1, _⟩ => rfl
    | ⟨2, _⟩ => exact Fin.ext (by have h := (i 2).isLt; change (i 2).val < 1 at h; show 0 = (i 2).val; omega)
  right_inv _ := rfl

/-- So a sum over it is the sum over that coordinate. -/
theorem sum_idx1n1 {M : Type*} [AddCommMonoid M] {n : ℕ} (f : (⟨3, ![1, n, 1]⟩ : Shape).Idx → M) :
    ∑ i, f i = ∑ r : Fin n, f (ix3 (0 : Fin 1) r (0 : Fin 1)) := by
  rw [← Equiv.sum_comp (idxEquiv1n1 (n := n)).symm f]
  rfl

end Layout

/-! ## The lane reductions of a `[1024, 1000]` block at a row -/

/-- The index a reduction over axis 1 inserts coordinate `k` into at row `r` is `(r, k)`. -/
theorem lift_row (h : S1024x1000.Reduces [1] S1024) (r : Fin 1024) (k : Fin 1000) :
    h.lift (ix1 r) k = ix2 r k := by
  funext d
  match d with
  | ⟨0, _⟩ => exact Fin.ext rfl
  | ⟨1, _⟩ => exact Fin.ext rfl

/-- a row's running maximum from −∞ -/
def rowMax (v3 : Vec Ideal S1024x1000 .f32) (r : Fin 1024) : EReal :=
  (Finset.univ : Finset (Fin 1000)).fold max (⊥ : EReal) (fun k => v3 (ix2 r k))

/-- The sum over the lanes, read at row `r`: the sum of the row's entries. -/
theorem rowSum_apply (src : FVec Ideal S1024x1000 .f32) (h : S1024x1000.Reduces [1] S1024) (hφ : FKind.Formats .f32)
    (hacc : (0x00000000#32 : BitVec 32) = 0x00000000#32) (r : Fin 1024) :
    multiReduction .add [1] S1024 src 0x00000000#32 h hφ hacc (ix1 r) = ∑ k : Fin 1000, src (ix2 r k) := by
  refine (Ideal.multiReduction_add_single src _ h hφ hacc (ix1 r)).trans ?_
  exact Finset.sum_congr rfl fun k _ => congrArg src (lift_row h r k)

/-- The maximum over the lanes from the pattern of −∞, read at row `r`: the row's running maximum from `⊥`. -/
theorem rowMax_apply (src : FVec Ideal S1024x1000 .f32) (h : S1024x1000.Reduces [1] S1024) (hφ : FKind.Formats .f32)
    (hacc : (0xFF800000#32 : BitVec 32) = 0xFF800000#32) (r : Fin 1024) :
    multiReduction .maximumf [1] S1024 src 0xFF800000#32 h hφ hacc (ix1 r) = rowMax src r := by
  refine (Ideal.multiReduction_maximumf_single src _ h hφ hacc (ix1 r)).trans ?_
  show (Finset.univ : Finset (Fin 1000)).fold max (Ideal.ofBits .f32 0xFF800000#32) (fun k => src (h.lift (ix1 r) k)) = _
  unfold rowMax
  rw [negInf_eq_bot]
  exact congrArg (fun f => (Finset.univ : Finset (Fin 1000)).fold max (⊥ : EReal) f)
    (funext fun k => congrArg src (lift_row h r k))

/-! ## The pointwise logarithm at an index, and the last extraction -/

section AtIdeal
variable {s : Shape} {φ : FTy}

/-- A logarithm at an index is the logarithm of the element. -/
theorem log_apply (a : FVec Ideal s φ) (i : s.Idx) : log a i = Ideal.log (a i) := rfl

end AtIdeal

/-- The entry at `(0, 0, 0)` of a `[1]` array cast to `[1, 1, 1]` is the array's one entry: both row-major positions are 0. -/
theorem extractAt_shapeCast_111 {α : Type} (x : (⟨1, ![1]⟩ : Shape).Idx → α)
    (h : (⟨1, ![1]⟩ : Shape).ShapeCasts ⟨3, ![1, 1, 1]⟩)
    (h' : ∀ a, (![0, 0, 0] : Fin 3 → ℕ) a < (⟨3, ![1, 1, 1]⟩ : Shape).size a) :
    extractAt ![0, 0, 0] (shapeCast ⟨3, ![1, 1, 1]⟩ x h) h' = x (ix1 (0 : Fin 1)) := by
  unfold extractAt
  exact shapeCast_apply x h _ _ (by rw [Shape.rowMajor_val_one, Shape.rowMajor_val_three]; rfl)

/-- The row sums kept as a `[1024, 1]` column, read at `(r, u)`: the sum of row `r`'s entries. -/
theorem rowSumCol_apply (src : FVec Ideal S1024x1000 .f32) (h : S1024x1000.Reduces [1] S1024) (hφ : FKind.Formats .f32)
    (hacc : (0x00000000#32 : BitVec 32) = 0x00000000#32) (hsc : S1024.ShapeCasts S1024x1) (r : Fin 1024) (u : Fin 1) :
    shapeCast S1024x1 (multiReduction .add [1] S1024 src 0x00000000#32 h hφ hacc) hsc (ix2 r u)
      = ∑ k : Fin 1000, src (ix2 r k) :=
  (shapeCast_a_a1_apply _ hsc r u).trans (rowSum_apply src h hφ hacc r)

/-- The row maxima kept as a column and broadcast back over the lanes, read at `(r, k)`: row `r`'s running maximum. -/
theorem rowMaxBroadcast_apply (src : FVec Ideal S1024x1000 .f32) (h : S1024x1000.Reduces [1] S1024) (hφ : FKind.Formats .f32)
    (hacc : (0xFF800000#32 : BitVec 32) = 0xFF800000#32) (hsc : S1024.ShapeCasts S1024x1)
    (hb : S1024x1.Broadcasts S1024x1000) (r : Fin 1024) (k : Fin 1000) :
    broadcastTo S1024x1000 (shapeCast S1024x1 (multiReduction .maximumf [1] S1024 src 0xFF800000#32 h hφ hacc) hsc) hb (ix2 r k)
      = rowMax src r :=
  (broadcastTo_a1_ab_apply _ hb r k).trans ((shapeCast_a_a1_apply _ hsc r 0).trans (rowMax_apply src h hφ hacc r))

/-! ## The three stored values -/

/-- The first stored value is the splat of the pattern of `+0`: the constant `0`. -/
theorem pay1_eq : (k0_pay1 (F := Ideal)) = fun _ => (0 : EReal) := by
  unfold k0_pay1
  dsimp only
  rw [shapeCast_self]
  funext i
  exact Ideal.ofBits_zero_f32

/-- The second stored value is the splat of the pattern of `+0` over `[8, 128]`: the constant `0`. -/
theorem pay2_eq : (k0_pay2 (F := Ideal)) = fun _ => (0 : EReal) := by
  unfold k0_pay2
  funext i
  exact Ideal.ofBits_zero_f32

/-- The third stored value: the old accumulator plus the sum over the block's 1024 rows of the row term
    `(Σ_k p) · log Σ_k exp (x − m) − Σ_k p · (x − m)`, `m` the row's running maximum from `−∞`. -/
theorem pay3_eq (v3 v4 : Vec Ideal S1024x1000 .f32) (v24 : Vec Ideal S1x1 .f32) (y : S1x1.Idx) :
    k0_pay3 (F := Ideal) v3 v4 v24 y = v24 y + ∑ r : Fin 1024,
      Cert.Spec.rowTerm (fun k : Fin 1000 => v3 (ix2 r k)) (fun k : Fin 1000 => v4 (ix2 r k)) (rowMax v3 r) := by
  unfold k0_pay3
  dsimp only
  rw [shapeCast_self, addf_apply, broadcast_apply, extractAt_shapeCast_111]
  refine congrArg (v24 y + ·) ?_
  refine (Ideal.multiReduction_add_total _ _ _ (by decide) _ _ _).trans ?_
  rw [sum_idx1n1]
  refine Finset.sum_congr rfl fun r _ => ?_
  rw [shapeCast_ab_1ab_apply, subf_apply, mulf_apply, log_apply]
  unfold Cert.Spec.rowTerm Cert.Spec.lse
  refine congrArg₂ (· - ·)
    (congrArg₂ (· * ·) (rowSumCol_apply _ _ _ _ _ r 0)
      (congrArg Ideal.log ((rowSumCol_apply _ _ _ _ _ r 0).trans ?_)))
    ((rowSumCol_apply _ _ _ _ _ r 0).trans ?_)
  · exact Finset.sum_congr rfl fun k _ =>
      congrArg Ideal.exp (congrArg (v3 (ix2 r k) - ·) (rowMaxBroadcast_apply v3 _ _ _ _ _ r k))
  · exact Finset.sum_congr rfl fun k _ =>
      congrArg (v4 (ix2 r k) * ·) (congrArg (v3 (ix2 r k) - ·) (rowMaxBroadcast_apply v3 _ _ _ _ _ r k))

end Cert.KernelIdeal.Pay

end
-- ==== Proof.Accum.lean ====
/- A scratch accumulator over a grid of 64 steps in two halves of 32, and rows cut into blocks. -/
import Mathlib.Algebra.BigOperators.Fin
import Mathlib.Algebra.BigOperators.Group.Finset.Basic
import Mathlib.Algebra.BigOperators.Intervals
import Mathlib.Data.Fintype.BigOperators

namespace Cert.Spec
open scoped BigOperators

variable {M : Type*} [AddCommMonoid M]

/-- the accumulator after step n: restarted from zero at every multiple of 32 -/
def accAt (part : ℕ → M) : ℕ → M
  | 0 => 0 + part 0
  | n + 1 => if (n + 1) % 32 = 0 then 0 + part (n + 1) else accAt part n + part (n + 1)

theorem accAt_zero (part : ℕ → M) : accAt part 0 = 0 + part 0 := rfl

theorem accAt_succ_reset (part : ℕ → M) (n : ℕ) (h : (n + 1) % 32 = 0) :
    accAt part (n + 1) = 0 + part (n + 1) := by
  rw [accAt, if_pos h]

theorem accAt_succ_add (part : ℕ → M) (n : ℕ) (h : ¬ (n + 1) % 32 = 0) :
    accAt part (n + 1) = accAt part n + part (n + 1) := by
  rw [accAt, if_neg h]

/-- At a multiple of 32 the accumulator holds just that step's part. -/
theorem accAt_of_dvd (part : ℕ → M) (n : ℕ) (h : n % 32 = 0) : accAt part n = part n := by
  cases n with
  | zero => rw [accAt_zero, zero_add]
  | succ n => rw [accAt_succ_reset part n h, zero_add]

/-- Inside a half: k steps after the restart at 32 * h the accumulator holds the parts of
    steps 32 * h, …, 32 * h + k. -/
theorem accAt_segment (part : ℕ → M) (h k : ℕ) (hk : k < 32) :
    accAt part (32 * h + k) = ∑ j ∈ Finset.range (k + 1), part (32 * h + j) := by
  induction k with
  | zero =>
    rw [Finset.sum_range_one, Nat.add_zero]
    exact accAt_of_dvd part (32 * h) (by omega)
  | succ k ih =>
    have hne : ¬ (32 * h + k + 1) % 32 = 0 := by omega
    rw [← Nat.add_assoc, accAt_succ_add part (32 * h + k) hne, ih (by omega),
      Finset.sum_range_succ _ (k + 1), Nat.add_assoc]

/-- the two stored values add up to the total over all 64 steps -/
theorem accAt_total (part : ℕ → M) : accAt part 31 + accAt part 63 = ∑ t : Fin 64, part t.val := by
  -- step 31 holds the parts of steps 0..31, step 63 those of steps 32..63
  have h0 := accAt_segment part 0 31 (by omega)
  have h1 := accAt_segment part 1 31 (by omega)
  simp only [Nat.mul_zero, Nat.zero_add, Nat.mul_one] at h0 h1
  rw [Fin.sum_univ_eq_sum_range (fun i => part i) 64, show (64 : ℕ) = 32 + 32 from rfl,
    Finset.sum_range_add, h0]
  exact congrArg _ h1

/-- Block t, row r of the block ↦ row t * 1024 + r: a bijection of 64 × 1024 with 65536. -/
def blockEquiv : Fin 64 × Fin 1024 ≃ Fin 65536 where
  toFun p := ⟨p.1.val * 1024 + p.2.val, by have := p.1.isLt; have := p.2.isLt; omega⟩
  invFun q := (⟨q.val / 1024, by have := q.isLt; omega⟩, ⟨q.val % 1024, by omega⟩)
  left_inv p := by
    have := p.1.isLt; have := p.2.isLt
    ext <;> simp only <;> omega
  right_inv q := by
    ext; simp only; omega

/-- rows in blocks: the double sum over 64 blocks of 1024 rows is the sum over all 65536 rows -/
theorem sum_blocks (g : Fin 65536 → M) : (∑ t : Fin 64, ∑ r : Fin 1024, g ⟨t.val * 1024 + r.val, by have := t.isLt; have := r.isLt; omega⟩) = ∑ q : Fin 65536, g q := by
  rw [← Equiv.sum_comp blockEquiv g, Fintype.sum_prod_type]
  rfl

end Cert.Spec
-- ==== Proof.IdealAccValue.lean ====
/- The accumulator, as a value. Grid point t (0 ≤ t < 64) reads rows 1024 t … 1024 t + 1023 of both arguments; its term
   is the total over those rows of the row term (row of scores, row of weights, the row's running maximum as the shift).
   The accumulator after position n is the running sum of the points' terms restarted at every multiple of 32, read at
   its one element; so the values it holds after positions 31 and 63 add up to the row term summed over all 65536 rows. -/
import proofs.«413168_j5677946765570_3_alg».proof.Proof.IdealDefs
import proofs.«413168_j5677946765570_3_alg».proof.Proof.PayIdeal
import proofs.«413168_j5677946765570_3_alg».proof.Proof.Accum
import proofs.«413168_j5677946765570_3_alg».proof.Proof.Spec
import Idealize.ShloMosaic.Lib.ValueIdx
import Idealize.ShloMosaic.Lib.Pipeline.Value

set_option maxRecDepth 16384

noncomputable section

namespace Cert.KernelIdeal.Value

open Cert.KernelIdeal Cert.KernelIdeal.Gen Cert.KernelIdeal.Body Idealize.ShloMosaic Idealize.ShloMosaic.ValueIdx
open Idealize.ShloMosaic.TcCoe Idealize.SL.Sem

variable (m : (ℓ : Loc nD τ sig) → Buf (Elt Ideal) ℓ)

/-- a row's running maximum from −∞, of a whole argument array -/
def rowMaxOf (x : FVec Ideal S65536x1000 .f32) (q : Fin 65536) : EReal :=
  (Finset.univ : Finset (Fin 1000)).fold max (⊥ : EReal) (fun k => x (ix2 q k))

/-- The first argument's block index at grid point t is (t, 0): point (p, i) of the 2 × 32 grid, in row-major
    position t = 32 p + i, fetches row-block 32 p + i. Decided over the 64 points. -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The same for the second argument. -/
theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- the block of point t holds rows 1024·t … of the argument -/
theorem xblk_apply (c : Dev nD) (t : Fin cfg0.N) (r : Fin 1024) (k : Fin 1000) :
    xblk m c t (ix2 r k) = m ((c.tc : Thread nD τ).loc main_arg0) (ix2 ⟨t.val * 1024 + r.val, by have := t.isLt; have := r.isLt; have : cfg0.N = 64 := N_0; omega⟩ k) := by
  have hi := idx_facts0 t
  show iblk m c 0 t (ix2 r k) = _
  unfold iblk
  rw [View.read_apply]
  show V m c main_arg0 _ = m (c.tc.loc main_arg0) _
  unfold V
  congr 1
  funext a
  apply Fin.ext
  -- a block's coordinate in the array is (block index) × (block size) + the coordinate inside the block
  match a with
  | ⟨0, _⟩ => show win0_0.index t 0 * 1024 + 1 * r.val = t.val * 1024 + r.val; rw [hi.1]; omega
  | ⟨1, _⟩ => show win0_0.index t 1 * 1000 + 1 * k.val = k.val; rw [hi.2]; omega

theorem pblk_apply (c : Dev nD) (t : Fin cfg0.N) (r : Fin 1024) (k : Fin 1000) :
    pblk m c t (ix2 r k) = m ((c.tc : Thread nD τ).loc main_arg1) (ix2 ⟨t.val * 1024 + r.val, by have := t.isLt; have := r.isLt; have : cfg0.N = 64 := N_0; omega⟩ k) := by
  have hi := idx_facts1 t
  show iblk m c 1 t (ix2 r k) = _
  unfold iblk
  rw [View.read_apply]
  show V m c main_arg1 _ = m (c.tc.loc main_arg1) _
  unfold V
  congr 1
  funext a
  apply Fin.ext
  match a with
  | ⟨0, _⟩ => show win0_1.index t 0 * 1024 + 1 * r.val = t.val * 1024 + r.val; rw [hi.1]; omega
  | ⟨1, _⟩ => show win0_1.index t 1 * 1000 + 1 * k.val = k.val; rw [hi.2]; omega

/-- The term of grid point n: the total over the block's 1024 rows of the kernel's row term, each row's shift its own
    running maximum; zero off the grid. -/
def part (c : Dev nD) (n : ℕ) : EReal :=
  if h : n < cfg0.N then
    ∑ r : Fin 1024, Cert.Spec.rowTerm (fun k : Fin 1000 => xblk m c ⟨n, h⟩ (ix2 r k)) (fun k : Fin 1000 => pblk m c ⟨n, h⟩ (ix2 r k))
      (Pay.rowMax (xblk m c ⟨n, h⟩) r)
  else 0

/-- Every index of the 1 × 1 accumulator is its one element. -/
theorem idx_one (y : S1x1.Idx) : y = ix2 0 0 := by
  funext a
  match a with
  | ⟨0, _⟩ => exact Fin.ext (by have := idx2_lt0 y; show (y 0).val = 0; omega)
  | ⟨1, _⟩ => exact Fin.ext (by have := idx2_lt1 y; show (y 1).val = 0; omega)

/-- What the body stores at a point, read at the accumulator's element: what it found there plus the point's term. -/
theorem stored_apply (c : Dev nD) (n : ℕ) (h : n < cfg0.N) (a : Vec Ideal S1x1 .f32) :
    k0_pay3 (F := Ideal) (xblk m c ⟨n, h⟩) (pblk m c ⟨n, h⟩) a (ix2 0 0) = a (ix2 0 0) + part m c n := by
  rw [Pay.pay3_eq, part, dif_pos h]

/-- The accumulator's element after position n is the restarted running sum of the points' terms. -/
theorem acc_eq (c : Dev nD) : ∀ (n : ℕ) (hn : n < cfg0.N), accAt (F := Ideal) m c n hn (ix2 0 0) = Cert.Spec.accAt (part m c) n
  | 0, hn => by
    rw [accAt_first m c ⟨0, hn⟩ rfl, stored_apply, Pay.pay1_eq, Cert.Spec.accAt_zero]
  | n + 1, hn => by
    by_cases h32 : (n + 1) % 32 = 0
    · rw [accAt_first m c ⟨n + 1, hn⟩ h32, stored_apply, Pay.pay1_eq, Cert.Spec.accAt_succ_reset _ _ h32]
    · rw [accAt_next m c ⟨n + 1, hn⟩ h32, stored_apply, Cert.Spec.accAt_succ_add _ _ h32]
      show accAt (F := Ideal) m c n _ (ix2 0 0) + _ = _
      rw [acc_eq c n]

/-- A point's term, over the rows of the whole arguments: block t's row r is row 1024 t + r. -/
theorem part_eq (c : Dev nD) (t : Fin 64) :
    part m c t.val = ∑ r : Fin 1024,
      (fun q : Fin 65536 => Cert.Spec.rowTerm (fun k : Fin 1000 => m ((c.tc : Thread nD τ).loc main_arg0) (ix2 q k))
        (fun k : Fin 1000 => m ((c.tc : Thread nD τ).loc main_arg1) (ix2 q k)) (rowMaxOf (m ((c.tc : Thread nD τ).loc main_arg0)) q))
        ⟨t.val * 1024 + r.val, by have := t.isLt; have := r.isLt; omega⟩ := by
  have hN : cfg0.N = 64 := N_0
  have ht : t.val < cfg0.N := by have := t.isLt; omega
  rw [part, dif_pos ht]
  refine Finset.sum_congr rfl fun r _ => ?_
  unfold Pay.rowMax rowMaxOf
  simp only [xblk_apply, pblk_apply]

/-- THE RESULT: the accumulator's element after positions 31 and 63 add up to the total over all rows -/
theorem acc_total (c : Dev nD) (h31 : 31 < cfg0.N) (h63 : 63 < cfg0.N) :
    accAt (F := Ideal) m c 31 h31 (ix2 0 0) + accAt (F := Ideal) m c 63 h63 (ix2 0 0)
      = ∑ q : Fin 65536, Cert.Spec.rowTerm (fun k : Fin 1000 => m ((c.tc : Thread nD τ).loc main_arg0) (ix2 q k)) (fun k : Fin 1000 => m ((c.tc : Thread nD τ).loc main_arg1) (ix2 q k)) (rowMaxOf (m ((c.tc : Thread nD τ).loc main_arg0)) q) := by
  -- the two stored values are the two halves' running sums; together the 64 points' terms; the points' blocks tile the rows
  rw [acc_eq m c 31 h31, acc_eq m c 63 h63, Cert.Spec.accAt_total, ← Cert.Spec.sum_blocks]
  exact Finset.sum_congr rfl fun t _ => part_eq m c t

end Cert.KernelIdeal.Value
end
-- ==== Proof.IdealOutValue.lean ====
/- The kernel's result, read off the frame run.

   The pipelined region writes the output array [16, 128] through a window of blocks [8, 128]: block p is written
   back once, at the last point 32·p + 31 of its half of the grid, and what is written is the zero block with its
   corner replaced by the accumulator after that point. The two blocks tile the array, so the array ends zero
   everywhere except at (0, 0) and (8, 0), where it holds the two accumulators. The lines after the region sum the
   array from zero, which leaves zero plus the sum of the two accumulators, and divide by 65536. -/
import proofs.«413168_j5677946765570_3_alg».proof.Proof.IdealFrame
import proofs.«413168_j5677946765570_3_alg».proof.Proof.PayIdeal
import Idealize.ShloMosaic.Lib.Pipeline.Value
import Idealize.ShloMosaic.Lib.ValueIdx
import Idealize.ShloMosaic.Lib.StableHlo.Run
import Idealize.ShloMosaic.PureOps.Ideal.Laws
import Mathlib.Data.EReal.Basic
import Mathlib.Algebra.BigOperators.Group.Finset.Basic

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

local notation "𝕄" => MT nD τ sig Unit (Elt Ideal) ℕ (UR sig nD τ) ℕ

open Cert.KernelIdeal Cert.KernelIdeal.Gen Cert.KernelIdeal.Body

variable (m : (ℓ : Loc nD τ sig) → Buf (Elt Ideal) ℓ) (ρ : Dev nD → PrngReg)

/-! ## The output array after the region -/

/-- The array that is zero except at (0, 0), where it holds a, and at (8, 0), where it holds b. -/
def out_arr (a b : EReal) : S16x128.Idx → EReal := fun i =>
  if (i 0).val = 0 ∧ (i 1).val = 0 then a else if (i 0).val = 8 ∧ (i 1).val = 0 then b else 0

/-- The output window's block index at point t is (t / 32, 0): decided over the grid's 64 points. -/
theorem out_idx_facts : ∀ t : Fin cfg0.N, win0_2.index t (0 : Fin 2) = t.val / 32 ∧ win0_2.index t (1 : Fin 2) = 0 :=
  (by decide +kernel : ∀ t : Fin grid0.N, win0_2.index t (0 : Fin 2) = t.val / 32 ∧ win0_2.index t (1 : Fin 2) = 0)

/-- One entry of a block against the array. The block is Z with its corner replaced by v; it sits in the array
    q blocks down, q = 0 with v = a or q = 1 with v = b; Z is zero. Then the block's entry at y is the array's
    entry at the index i that y has in the array. -/
theorem out_block_entry (a b v : EReal) (Z : Vec Ideal S8x128 .f32) (hZ : Z = fun _ => (0 : EReal))
    (A : Vec Ideal S1x1 .f32) (hA : A (ix2 0 0) = v) (q : ℕ) (hq : (q = 0 ∧ v = a) ∨ (q = 1 ∧ v = b))
    (y : S8x128.Idx) (i : S16x128.Idx) (h0 : (i 0).val = q * 8 + (y 0).val) (h1 : (i 1).val = (y 1).val) :
    setCorner Z A y = out_arr a b i := by
  unfold setCorner out_arr
  subst hZ
  have hy0 : (y 0).val < 8 := (y 0).isLt
  rcases hq with ⟨rfl, rfl⟩ | ⟨rfl, rfl⟩
  · by_cases hc : (y 0).val = 0 ∧ (y 1).val = 0
    · rw [if_pos hc, if_pos (by omega), hA]
    · rw [if_neg hc, if_neg (by omega), if_neg (by omega)]
  · by_cases hc : (y 0).val = 0 ∧ (y 1).val = 0
    · rw [if_pos hc, if_neg (by omega), if_pos (by omega), hA]
    · rw [if_neg hc, if_neg (by omega), if_neg (by omega)]

/-- The accumulator at a position depends on the position only. -/
theorem out_accAt_congr (c : Dev nD) (n n' : ℕ) (h : n < cfg0.N) (h' : n' < cfg0.N) (e : n = n') :
    accAt (F := Ideal) m c n h = accAt (F := Ideal) m c n' h' := by
  subst e; rfl

/-- What a point that writes back writes is its block of that array. -/
theorem out_flushed_eq (c : Dev nD) (h31 : 31 < cfg0.N) (h63 : 63 < cfg0.N) (t : Fin cfg0.N)
    (hf : (cfg0.win 2).flush t = true) :
    (dats (F := Ideal) m 0 c).flushed 2 t
      = ((cfg0.win 2).blk t).view.read (Elt Ideal)
          (out_arr (accAt (F := Ideal) m c 31 h31 (ix2 0 0)) (accAt (F := Ideal) m c 63 h63 (ix2 0 0))) := by
  have ht : t.val % 32 = 31 := (flush0_2 t).mp hf
  show (cfg0.win 2).cut (grid0.coords t) ((dats (F := Ideal) m 0 c).after 2 t) = _
  rw [after_2, outAt_last m c t ht]
  funext j
  have hN : t.val < 64 := lt_of_lt_of_eq t.isLt (show cfg0.N = 64 from N_0)
  obtain ⟨e0, e1⟩ := out_idx_facts t
  have hj0 : (j 0).val < 8 := (j 0).isLt
  have hj1 : (j 1).val < 128 := (j 1).isLt
  refine out_block_entry _ _ (accAt (F := Ideal) m c t.val t.isLt (ix2 0 0)) _ Cert.KernelIdeal.Pay.pay2_eq _ rfl
    (t.val / 32) ?_ ((cfg0.win 2).xinj (grid0.coords t) j) (((cfg0.win 2).blk t).view.emb j) ?_ ?_
  · rcases (by omega : t.val = 31 ∨ t.val = 63) with h | h
    · exact Or.inl ⟨by omega, congrFun (out_accAt_congr m c _ _ _ _ h) _⟩
    · exact Or.inr ⟨by omega, congrFun (out_accAt_congr m c _ _ _ _ h) _⟩
  · show win0_2.index t (0 : Fin 2) * 8 + 1 * (j 0).val = t.val / 32 * 8 + (j 0).val
    rw [e0]; omega
  · show win0_2.index t (1 : Fin 2) * 128 + 1 * (j 1).val = (j 1).val
    rw [e1]; omega

/-- Every index of the array lies in the block of a point that writes back: row i₀ in that of the last point of
    half i₀ / 8, at row i₀ % 8 of the block. -/
theorem out_cover (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 64 := N_0
  obtain ⟨t, htv⟩ : ∃ t : Fin cfg0.N, t.val = 32 * ((i 0).val / 8) + 31 := ⟨⟨_, by omega⟩, rfl⟩
  refine ⟨t, (flush0_2 t).mpr (by omega), ?_⟩
  obtain ⟨e0, e1⟩ := out_idx_facts t
  have e : ((cfg0.win 2).blk t).view.emb
      (ix2 (n0 := 8) (n1 := 128) ⟨(i 0).val % 8, by omega⟩ ⟨(i 1).val, hi1⟩ : S8x128.Idx) = i :=
    funext fun a => Fin.ext (by
      match a with
      | ⟨0, _⟩ =>
        show win0_2.index t (0 : Fin 2) * 8 + 1 * ((i 0).val % 8) = (i 0).val
        rw [e0]; omega
      | ⟨1, _⟩ =>
        show win0_2.index t (1 : Fin 2) * 128 + 1 * (i 1).val = (i 1).val
        rw [e1]; omega)
  rw [← e]
  exact ((cfg0.win 2).blk t).view.emb_mem_set _

/-- The output array after the region. -/
theorem out_final (c : Dev nD) (h31 : 31 < cfg0.N) (h63 : 63 < cfg0.N) :
    (dats (F := Ideal) m 0 c).arrAt 2 cfg0.N
      = out_arr (accAt (F := Ideal) m c 31 h31 (ix2 0 0)) (accAt (F := Ideal) m c 63 h63 (ix2 0 0)) :=
  (dats (F := Ideal) m 0 c).arrAt_eq_of_cover 2 _ (fun t hf => out_flushed_eq m c h31 h63 t hf) out_cover

/-- The array's total is the sum of its two entries that are not zero. -/
theorem out_sum (a b : EReal) : ∑ j : S16x128.Idx, out_arr a b j = a + b := by
  have key : ∀ (j : S16x128.Idx) (p : Fin 16) (n : ℕ), p.val = n → (j 0).val = n ∧ (j 1).val = 0 →
      j = ix2 p (0 : Fin 128) :=
    fun j p n hn hp => funext fun d => by
      match d with
      | ⟨0, _⟩ => exact Fin.ext (hp.1.trans hn.symm)
      | ⟨1, _⟩ => exact Fin.ext hp.2
  have hne : (ix2 (0 : Fin 16) (0 : Fin 128) : S16x128.Idx) ≠ ix2 (8 : Fin 16) (0 : Fin 128) :=
    fun e => absurd (congrArg (fun j : S16x128.Idx => (j 0).val) e) (by decide)
  rw [Finset.sum_eq_add (ix2 (0 : Fin 16) (0 : Fin 128)) (ix2 (8 : Fin 16) (0 : Fin 128)) hne
    (fun j _ hj => ?_) (fun h => absurd (Finset.mem_univ _) h) (fun h => absurd (Finset.mem_univ _) h)]
  · have ea : out_arr a b (ix2 (0 : Fin 16) (0 : Fin 128)) = a := if_pos ⟨rfl, rfl⟩
    have eb : out_arr a b (ix2 (8 : Fin 16) (0 : Fin 128)) = b :=
      (if_neg fun h => absurd h.1 (by decide)).trans (if_pos ⟨rfl, rfl⟩)
    rw [ea, eb]
  · unfold out_arr
    rw [if_neg fun h => hj.1 (key j 0 0 rfl h), if_neg fun h => hj.2 (key j 8 8 rfl h)]

/-! ## The lines after the region -/

/-- The result buffer after the lines that follow the region. -/
theorem out_tail (c : Dev nD) (h31 : 31 < cfg0.N) (h63 : 63 < cfg0.N) :
    Pipeline.afterTail₀ cfgs (dats (F := Ideal) m) 0 (V0 m) [hostOps1] c main_v2
      = (fun _ => Ideal.div (0 + (accAt (F := Ideal) m c 31 h31 (ix2 0 0) + accAt (F := Ideal) m c 63 h63 (ix2 0 0)))
          (Ideal.ofBits .f32 0x47800000#32)) := by
  unfold Pipeline.afterTail₀
  show StableHlo.after hostOps1 _ (Proc.devRef .tc main_v2) = _
  after_results
  rw [show Pipeline.withArrays (cfgs 0).spec c (V0 m c) (fun w => (dats (F := Ideal) m 0 c).arrAt w (cfgs 0).N)
        (Proc.devRef .tc main_v0)
      = out_arr (accAt (F := Ideal) m c 31 h31 (ix2 0 0)) (accAt (F := Ideal) m c 63 h63 (ix2 0 0)) from
    (Pipeline.withArrays_arr spec0 launch0.win.arr_inj c _ _ 2).trans (out_final m c h31 h63)]
  funext i
  have hR : Host.reduceAdd (F := Ideal)
        (out_arr (accAt (F := Ideal) m c 31 h31 (ix2 0 0)) (accAt (F := Ideal) m c 63 h63 (ix2 0 0)))
        (constant S_ .f32 0x00000000#32) reducesTo_S16x128_S_d0_1 h_S_ i
      = 0 + (accAt (F := Ideal) m c 31 h31 (ix2 0 0) + accAt (F := Ideal) m c 63 h63 (ix2 0 0)) := by
    simp only [Host.reduceAdd, Ideal.hostReduceAdd_def]
    rw [Ideal.hostReduceAdd_total reducesTo_S16x128_S_d0_1 (fun b => b.elim0) _ _ i, out_sum]
    exact congrArg (· + _) Ideal.ofBits_zero_f32
  exact congrArg (fun z => Ideal.div z (Ideal.ofBits .f32 0x47800000#32)) hR

/-- The result buffer is unscoped and is no window's array: the region passes it by. -/
theorem out_v2_rest : main_v2 ∈ Pipeline.restRefs sig (cfgs 0).spec :=
  Pipeline.mem_restRefs_of main_v2 rfl (by decide)

/-! ## The run -/

/-- Every weakly fair execution of @main terminates with the result at zero plus the sum of the two halves'
    accumulators, divided by 65536, and the argument arrays unchanged. -/
theorem kernel_run (m : (ℓ : Loc nD τ sig) → Buf (Elt Ideal) ℓ) (ρ : Dev nD → PrngReg) (h31 : 31 < cfg0.N) (h63 : 63 < cfg0.N) :
    θ_run defs (onTc (τ := τ) (main (F := Ideal))) ⟨m, fun _ => 0, ρ⟩ (fun r => ∀ c : Dev nD,
      r.2.mem ((c.tc : Thread nD τ).loc main_v2)
          = (fun _ => Ideal.div (0 + (accAt (F := Ideal) m c 31 h31 (ix2 0 0) + accAt (F := Ideal) m c 63 h63 (ix2 0 0))) (Ideal.ofBits .f32 0x47800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v2 out_v2_rest).trans (out_tail m c h31 h63),
      ((h c).1 0).trans (((dats (F := Ideal) m 0 c).arrAt_in 0 rfl _).trans ((A_eq m c 0).trans (V_main_arg0 m c))),
      ((h c).1 1).trans (((dats (F := Ideal) m 0 c).arrAt_in 1 rfl _).trans ((A_eq m c 1).trans (V_main_arg1 m c)))⟩)
    (run_main m ρ)

end Cert.KernelIdeal.Value

end
-- ==== Proof.RefValue.lean ====
/- The reference program's result as one formula in the two argument arrays.

   The reference takes, row by row, the maximum M' of a row of scores (started from −∞), shifts the
   row by it, and forms log_softmax(x)[r,k] = (x[r,k] − M'[r]) − log Σ_k' exp(x[r,k'] − M'[r]); its
   result is −(Σ_{r,k} P[r,k] · log_softmax(x)[r,k]) / 65536. Read at the ideal values, where floats
   are extended reals, each stage of the program is the corresponding operation of the extended
   reals, so the program's result is that formula. The row maximum of real scores is a real number;
   that is all the later steps need of it. -/
import proofs.«413168_j5677946765570_3_alg».proof.Proof.RefRead
import proofs.«413168_j5677946765570_3_alg».proof.Proof.Spec
import Idealize.ShloMosaic.Lib.ValueIdx
import Idealize.ShloMosaic.PureOps.Ideal.Laws
import Idealize.ShloMosaic.PureOps.Reduce
import Mathlib.Data.EReal.Basic
import Mathlib.Data.Finset.Fold
import Mathlib.Algebra.BigOperators.Group.Finset.Basic

noncomputable section

namespace Cert.ReferenceIdeal.RefValue

open Cert.ReferenceIdeal Cert.ReferenceIdeal.Gen Cert.ReferenceIdeal.ReadP Idealize.ShloMosaic Idealize.ShloMosaic.ValueIdx
open scoped BigOperators

/-- The pattern 0xFF800000 (sign set, exponent all ones, mantissa zero) denotes −∞. -/
theorem negInf_eq_bot : Ideal.ofBits .f32 0xFF800000#32 = (⊥ : EReal) := by
  simp [Ideal.ofBits, Ideal.ieee]

/-- The row maximum stage at row r: the maximum of −∞ and the running maximum, from −∞, of the row's
    entries; that is, the running maximum itself. -/
theorem rowMax_eq (x0 : (⟨S65536x1000, .f32⟩ : BufTy).Contents (Elt Ideal)) (r : Fin 65536) :
    val_main_call0_v2 (F := Ideal) x0 (ix1 r)
      = (Finset.univ : Finset (Fin 1000)).fold max (⊥ : EReal) (fun k : Fin 1000 => x0 (ix2 r k)) := by
  rw [val_main_call0_v2_apply, val_main_call0_v1_apply, val_main_call0_cst_0_apply]
  unfold val_main_call0_v0
  rw [Host.reduce_eq_fold_single (FloatOps.maximumf (F := Ideal) (φ := .f32)) x0 _
    reducesTo_S65536x1000_S65536_d1 (by decide) h_S_ (ix1 r)]
  rw [val_main_call0_cst_apply, Ideal.ofBits_def, negInf_eq_bot, Ideal.maximumf_def, Cert.Spec.max_bot_left]
  exact Finset.fold_congr (fun k _ => congrArg x0 (funext fun a => Fin.ext (by
    match a with | ⟨0, _⟩ => rfl | ⟨1, _⟩ => rfl)))

/-- The running maximum, from −∞, of a row of real scores is a real number. -/
theorem rowMax_real (x0 : (⟨S65536x1000, .f32⟩ : BufTy).Contents (Elt Ideal)) (hx : ∀ i, ∃ a : ℝ, x0 i = (a : EReal))
    (r : Fin 65536) : ∃ a : ℝ, val_main_call0_v2 (F := Ideal) x0 (ix1 r) = (a : EReal) := by
  rw [rowMax_eq]
  exact Cert.Spec.fold_max_real (by decide) _ (fun k => hx (ix2 r k))

/-- The shifted score at (r, k): the score minus the row's maximum. -/
theorem shifted_eq (x0 : (⟨S65536x1000, .f32⟩ : BufTy).Contents (Elt Ideal)) (r : Fin 65536) (k : Fin 1000) :
    val_main_call0_v5 (F := Ideal) x0 (ix2 r k)
      = x0 (ix2 r k) - val_main_call0_v2 (F := Ideal) x0 (ix1 r) := by
  rw [val_main_call0_v5_apply, val_main_call0_v4_apply, val_main_call0_v3_apply, Ideal.subf_def]
  exact congrArg (fun j => x0 (ix2 r k) - val_main_call0_v2 (F := Ideal) x0 j)
    (funext fun a => Fin.ext (by match a with | ⟨0, _⟩ => rfl))

/-- The broadcast log of the row's sum of exponentials at (r, k): the log-sum-exp of row r shifted by
    the row's maximum; the sum starts from the zero constant, which adds nothing. -/
theorem logSum_eq (x0 : (⟨S65536x1000, .f32⟩ : BufTy).Contents (Elt Ideal)) (r : Fin 65536) (k : Fin 1000) :
    val_main_call0_v10 (F := Ideal) x0 (ix2 r k)
      = Cert.Spec.lse (fun k : Fin 1000 => x0 (ix2 r k)) (val_main_call0_v2 (F := Ideal) x0 (ix1 r)) := by
  rw [val_main_call0_v10_apply, val_main_call0_v9_apply, val_main_call0_v8_apply, val_main_call0_v7_apply,
    val_main_call0_cst_1_apply, Ideal.hostUnary_log_def, Ideal.ofBits_def, Ideal.ofBits_zero_f32, zero_add]
  unfold Cert.Spec.lse
  refine congrArg Ideal.log (Finset.sum_congr rfl fun k' _ => ?_)
  have e : idx_main_call0_v7 (idx_main_call0_v8 (idx_main_call0_v10 (ix2 r k))) k' = ix2 r k' :=
    funext fun a => Fin.ext (by match a with | ⟨0, _⟩ => rfl | ⟨1, _⟩ => rfl)
  rw [val_main_call0_v6_apply, Ideal.hostUnary_exp_def, e, shifted_eq]

/-- One element of the product array: the reference's element of row r at column k, with the row's
    maximum as the shift. -/
theorem elt_eq (x0 x1 : (⟨S65536x1000, .f32⟩ : BufTy).Contents (Elt Ideal)) (r : Fin 65536) (k : Fin 1000) :
    val_main_v1 (F := Ideal) x0 x1 (ix2 r k)
      = Cert.Spec.refElt (fun k : Fin 1000 => x0 (ix2 r k)) (fun k : Fin 1000 => x1 (ix2 r k))
          (val_main_call0_v2 (F := Ideal) x0 (ix1 r)) k := by
  rw [val_main_v1_apply, val_main_v0_apply, shifted_eq, logSum_eq, Ideal.mulf_def, Ideal.subf_def]
  rfl

/-- The reference's result: minus the total over rows and columns of its elements, divided by 65536;
    the shift of each row is that row's maximum, a real number when every score is. -/
theorem ref_value (x0 x1 : (⟨S65536x1000, .f32⟩ : BufTy).Contents (Elt Ideal)) (hx : ∀ i, ∃ a : ℝ, x0 i = (a : EReal)) :
    ∃ M' : Fin 65536 → EReal, (∀ r, ∃ a : ℝ, M' r = (a : EReal)) ∧
      ∀ i : S_.Idx, val_main_v4 (F := Ideal) x0 x1 i
        = Ideal.div (-(0 + ∑ r : Fin 65536, ∑ k : Fin 1000, Cert.Spec.refElt (fun k : Fin 1000 => x0 (ix2 r k)) (fun k : Fin 1000 => x1 (ix2 r k)) (M' r) k)) (Ideal.ofBits .f32 0x47800000#32) := by
  refine ⟨fun r => val_main_call0_v2 (F := Ideal) x0 (ix1 r), rowMax_real x0 hx, fun i => ?_⟩
  rw [val_main_v4_apply, val_main_v3_apply, val_main_v2_apply, val_main_cst_apply, val_main_cst_0_apply,
    Ideal.hostDivf_def, Ideal.hostNegf_def, Ideal.negf_def]
  simp only [Ideal.ofBits_def, Ideal.ofBits_zero_f32]
  rw [sum_idx2]
  simp only [elt_eq]

end Cert.ReferenceIdeal.RefValue

end
-- ==== Proof.Finite.lean ====
import proofs.«413168_j5677946765570_3_alg».proof.Pre_finite_inputs
import proofs.«413168_j5677946765570_3_alg».proof.Proof.Gen.Pre_finite_inputs
import Idealize.ShloMosaic.PureOps.Ideal
import Idealize.ShloMosaic.Lib.ReduceAll
import Idealize.ShloMosaic.Lib.ValueIdx
import Mathlib.Data.EReal.Basic

/-!
# The finiteness predicate, read back

The precondition is printed as a rank-0 boolean: the conjunction, over all indices and over both
arrays, of the elementwise test `|x| < +∞`. At the ideal instance an entry is an extended real,
`|x|` is `max x (-x)`, and `+∞` is `⊤`. An extended real with `max x (-x) < ⊤` is neither
`⊤` (then `max x (-x) = ⊤`) nor `⊥` (then `-x = ⊤`), hence a real number.
-/

namespace Cert.Finite

open Idealize.ShloMosaic

/-- The pattern `0x7F800000` (exponent all ones, mantissa zero, sign clear) denotes `⊤`. -/
theorem posInf_eq_top : Ideal.ofBits .f32 0x7F800000#32 = (⊤ : EReal) := by
  simp [Ideal.ofBits, Ideal.ieee]

/-- An extended real whose absolute value `max x (-x)` is strictly below `⊤` is a real number:
    at `⊤` the maximum is `⊤` by its left argument, at `⊥` by its right argument `-⊥ = ⊤`. -/
theorem real_of_abs_lt_top (x : EReal) (h : max x (-x) < ⊤) : ∃ a : ℝ, x = (a : EReal) := by
  induction x using EReal.rec with
  | bot => simp at h
  | coe a => exact ⟨a, rfl⟩
  | top => simp at h

/-- The strict comparison, read back: its boolean word is 1 exactly when the order relation holds,
    so a 1 gives `x < y`. -/
theorem lt_of_cmp_olt {x y : EReal} (h : Ideal.cmp .olt x y = 1#1) : x < y := by
  have h' : BitVec.ofBool (decide (x < y)) = 1#1 := h
  cases hd : decide (x < y) with
  | false => rw [hd] at h'; exact absurd h' (by decide)
  | true => exact of_decide_eq_true hd

/-- A rank-0 shape has exactly one index: there is no axis to give a coordinate on. -/
instance : Subsingleton Cert.Pre_finite_inputs.S_.Idx := ⟨fun a b => funext fun d => d.elim0⟩

/-- One array's half of the predicate: if the conjunction over all indices of `|x i| < +∞` is 1,
    every entry is real. The conjunction being 1 makes each conjunct 1; the conjunct at `i` is the
    truth value of `max (x i) (-(x i)) < ⊤`, the broadcast scalar being `⊤` at every index. -/
theorem real_of_all [Cert.Pre_finite_inputs.Facts]
    (x : FVec Ideal Cert.Pre_finite_inputs.S65536x1000 .f32)
    (init : IVec Cert.Pre_finite_inputs.S_ 1)
    (e : Host.reduce IntOp.andi
          (cmpf .olt (Host.absf x)
            (broadcastInDim Cert.Pre_finite_inputs.S65536x1000 ![]
              Cert.Pre_finite_inputs.Facts.bcast_S_S65536x1000
              (constant (F := Ideal) Cert.Pre_finite_inputs.S_ .f32 0x7F800000#32)))
          init Cert.Pre_finite_inputs.Facts.reducesTo_S65536x1000_S_d0_1
          Cert.Pre_finite_inputs.Facts.h_S_ ValueIdx.ix0 = 1#1)
    (i : Cert.Pre_finite_inputs.S65536x1000.Idx) : ∃ a : ℝ, x i = (a : EReal) := by
  have hi := Host.reduce_andi_all _ _ _ _ _ e i
  have h1 : Ideal.cmp .olt (max (x i) (-(x i))) (Ideal.ofBits .f32 0x7F800000#32) = 1#1 := hi
  rw [posInf_eq_top] at h1
  exact real_of_abs_lt_top (x i) (lt_of_cmp_olt h1)

/-- every entry of both arrays is a real number when the printed finiteness predicate is all ones -/
theorem real_of_pre [Cert.Pre_finite_inputs.Facts] (x0 x1 : FVec Ideal Cert.Pre_finite_inputs.S65536x1000 .f32)
    (h : Cert.Pre_finite_inputs.fn (F := Ideal) x0 x1 = (fun _ => 1#1)) :
    (∀ i, ∃ a : ℝ, x0 i = (a : EReal)) ∧ (∀ i, ∃ a : ℝ, x1 i = (a : EReal)) := by
  have h0 := congrFun h ValueIdx.ix0
  dsimp only [Cert.Pre_finite_inputs.fn] at h0
  obtain ⟨ha, hb⟩ := IntOp.andi_eq_one.1 h0
  exact ⟨fun i => real_of_all x0 _ ha i, fun i => real_of_all x1 _ hb i⟩

end Cert.Finite
-- ==== Proof.lean ====
/- The claim: a cross-entropy loss summed block by block against the same loss computed whole.
   The kernel walks 64 blocks of 1024 rows in two halves; per row it forms (Σ_k P)·log Σ_k exp(x − m) − Σ_k P·(x − m), m the row's
   running maximum, adds the block's rows into a scratch accumulator, and at the end of each half stores the accumulator into
   the corner of an otherwise zero output block; the host adds the output up and divides by 65536. The reference computes
   −Σ_{r,k} P·((x − m') − log Σ exp(x − m')) / 65536 in one pass. Over the extended reals, with every input a real number,
   the two are equal: log-softmax does not depend on the (real) shift, the row's term is minus the row's total of the
   reference's elements, and sums of reals may be regrouped freely. Finiteness is used: distributing P over the difference
   fails at infinities.
   Frames: both kernels' frames are the hand-written body obligation over the pipeline's proof data; the reference's is its
   run with the result dropped. The idealization applies no rule, so `preserves` is trivial. -/
import proofs.«413168_j5677946765570_3_alg».proof.Defs
import proofs.«413168_j5677946765570_3_alg».proof.Proof.Gen.Kernel
import proofs.«413168_j5677946765570_3_alg».proof.Proof.Gen.KernelIdeal
import proofs.«413168_j5677946765570_3_alg».proof.Proof.Gen.ReferenceIdeal
import proofs.«413168_j5677946765570_3_alg».proof.Proof.Gen.Pre_finite_inputs
import proofs.«413168_j5677946765570_3_alg».proof.Proof.KernelFrame
import proofs.«413168_j5677946765570_3_alg».proof.Proof.IdealFrame
import proofs.«413168_j5677946765570_3_alg».proof.Proof.IdealAccValue
import proofs.«413168_j5677946765570_3_alg».proof.Proof.IdealOutValue
import proofs.«413168_j5677946765570_3_alg».proof.Proof.RefValue
import proofs.«413168_j5677946765570_3_alg».proof.Proof.Finite
import Idealize.ShloMosaic.Adequacy
import Idealize.ShloMosaic.Init

noncomputable section

namespace Cert.Proof

open Idealize.ShloMosaic Idealize.ShloMosaic.ValueIdx Idealize.SL.Sem

/-- Both programs' results, from arguments every entry of which is a real number, are one extended real: the two stored
    accumulators add up to the total over all rows of the kernel's row terms, which is minus the total of the reference's
    elements whatever real shift each side uses. -/
theorem result_eq (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) = (fun _ => 1#1))
    (h31 : 31 < Cert.KernelIdeal.cfg0.N) (h63 : 63 < Cert.KernelIdeal.cfg0.N) :
    Cert.ReferenceIdeal.ReadP.val_main_v4 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      = (fun _ => Ideal.div (0 + (Cert.KernelIdeal.Body.accAt (F := Ideal) m c 31 h31 (ix2 0 0) + Cert.KernelIdeal.Body.accAt (F := Ideal) m c 63 h63 (ix2 0 0))) (Ideal.ofBits .f32 0x47800000#32)) := by
  obtain ⟨hx, hp⟩ := Cert.Finite.real_of_pre _ _ hpre
  obtain ⟨M', hM', hv⟩ := Cert.ReferenceIdeal.RefValue.ref_value _ _ hx
  haveI : Nonempty (Fin 1000) := ⟨⟨0, by norm_num⟩⟩
  funext i
  rw [hv i, Cert.KernelIdeal.Value.acc_total m c h31 h63,
    Cert.Spec.sum_rowTerm_eq _ _
      (fun q => Cert.KernelIdeal.Value.rowMaxOf (m ((c.tc : Thread Cert.KernelIdeal.nD Cert.KernelIdeal.τ).loc Cert.KernelIdeal.main_arg0)) q) M'
      (fun q k => hx (ix2 q k)) (fun q k => hp (ix2 q k))
      (fun q => Cert.Spec.fold_max_real (by norm_num) _ (fun k => hx (ix2 q k))) hM']
  simp only [zero_add]

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' hpre hagree
  have h31 : 31 < Cert.KernelIdeal.cfg0.N := by
    rw [show Cert.KernelIdeal.cfg0.N = 64 from Cert.KernelIdeal.Gen.N_0]; norm_num
  have h63 : 63 < Cert.KernelIdeal.cfg0.N := by
    rw [show Cert.KernelIdeal.cfg0.N = 64 from Cert.KernelIdeal.Gen.N_0]; norm_num
  refine ⟨_, Cert.KernelIdeal.Value.kernel_run m ρ h31 h63, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v4_eq, (hagree c).1, (hagree c).2]
  exact result_eq m c (hpre c) h31 h63

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
